-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S300000 : Shape := ⟨1, ![300000]⟩
abbrev S300000x1 : Shape := ⟨2, ![300000, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S300000x1 : S_.BroadcastsInDim S300000x1 (![] : Fin 0 → Fin S300000x1.rank)
  reducesTo_S300000x1_S_d0_1 : S300000x1.ReducesTo [0, 1] S_

variable [Facts]

def fn_part2 {F : FTy → Type} [FloatOps F] (main_arg11 : FVec F S300000x1 .f32) (main_v33 : IVec S_ 1) : IVec S_ 1 :=
  let main_v34 : FVec F S300000x1 .f32 := Host.absf main_arg11
  let main_cst_12 : FVec F S_ .f32 := constant S_ .f32 0x7F800000#32
  let main_v35 : FVec F S300000x1 .f32 := broadcastInDim S300000x1 ![] bcast_S_S300000x1 main_cst_12
  let main_v36 : IVec S300000x1 1 := cmpf .olt main_v34 main_v35
  let main_c_13 : IVec S_ 1 := constantI S_ 1 1#1
  let main_v37 : IVec S_ 1 := (fun x v => Host.reduce IntOp.andi x v reducesTo_S300000x1_S_d0_1 h_S_) main_v36 main_c_13
  let main_v38 : IVec S_ 1 := andi main_v33 main_v37
  main_v38

def fn_part1 {F : FTy → Type} [FloatOps F] (main_arg4 : FVec F S128x128 .f32) (main_arg5 : FVec F S128 .f32) (main_arg8 : FVec F S300000x1 .f32) (main_arg11 : FVec F S300000x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S300000x1 .f32 := Host.absf main_arg8
  let main_cst_10 : FVec F S_ .f32 := constant S_ .f32 0x7F800000#32
  let main_v30 : FVec F S300000x1 .f32 := broadcastInDim S300000x1 ![] bcast_S_S300000x1 main_cst_10
  let main_v31 : IVec S300000x1 1 := cmpf .olt main_v29 main_v30
  let main_c_11 : IVec S_ 1 := constantI S_ 1 1#1
  let main_v32 : IVec S_ 1 := (fun x v => Host.reduce IntOp.andi x v reducesTo_S300000x1_S_d0_1 h_S_) main_v31 main_c_11
  let main_v33 : IVec S_ 1 := andi main_v28 main_v32
  fn_part2 (F := F) main_arg11 main_v33

def fn {F : FTy → Type} [FloatOps F] (main_arg0 : FVec F S100000x128 .f32) (main_arg1 : FVec F S50000x128 .f32) (main_arg2 : FVec F S128x128 .f32) (main_arg3 : FVec F S128 .f32) (main_arg4 : FVec F S128x128 .f32) (main_arg5 : FVec F S128 .f32) (main_arg6 : IVec S300000 32) (main_arg7 : IVec S300000 32) (main_arg8 : FVec F S300000x1 .f32) (main_arg9 : IVec S300000 32) (main_arg10 : IVec S300000 32) (main_arg11 : FVec F S300000x1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg8 main_arg11 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S300000 : Shape := ⟨1, ![300000]⟩
abbrev S300000x1 : Shape := ⟨2, ![300000, 1]⟩
abbrev S2000x128 : Shape := ⟨2, ![2000, 128]⟩
abbrev S1x128 : Shape := ⟨2, ![1, 128]⟩
abbrev S_ : Shape := ⟨0, ![]⟩
abbrev S300000x128 : Shape := ⟨2, ![300000, 128]⟩
abbrev S2000 : Shape := ⟨1, ![2000]⟩
abbrev S2000x1 : Shape := ⟨2, ![2000, 1]⟩

abbrev nBuf : Space → Nat
  | .hbm => 96
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S300000, .i32⟩
  | .hbm, ⟨7, _⟩ => ⟨S300000, .i32⟩
  | .hbm, ⟨8, _⟩ => ⟨S300000x1, .f32⟩
  | .hbm, ⟨9, _⟩ => ⟨S300000, .i32⟩
  | .hbm, ⟨10, _⟩ => ⟨S300000, .i32⟩
  | .hbm, ⟨11, _⟩ => ⟨S300000x1, .f32⟩
  | .hbm, ⟨12, _⟩ => ⟨S128x128, .f32⟩
  | .hbm, ⟨13, _⟩ => ⟨S128x128, .f32⟩
  | .hbm, ⟨14, _⟩ => ⟨S100000x128, .f32⟩
  | .hbm, ⟨15, _⟩ => ⟨S100000x128, .f32⟩
  | .hbm, ⟨16, _⟩ => ⟨S50000x128, .f32⟩
  | .hbm, ⟨17, _⟩ => ⟨S50000x128, .f32⟩
  | .hbm, ⟨18, _⟩ => ⟨S_, .i32⟩
  | .hbm, ⟨19, _⟩ => ⟨S300000, .i32⟩
  | .hbm, ⟨20, _⟩ => ⟨S300000, .i1⟩
  | .hbm, ⟨21, _⟩ => ⟨S_, .i32⟩
  | .hbm, ⟨22, _⟩ => ⟨S300000, .i32⟩
  | .hbm, ⟨23, _⟩ => ⟨S300000, .i32⟩
  | .hbm, ⟨24, _⟩ => ⟨S300000, .i32⟩
  | .hbm, ⟨25, _⟩ => ⟨S300000x1, .i32⟩
  | .hbm, ⟨26, _⟩ => ⟨S300000x128, .f32⟩
  | .hbm, ⟨27, _⟩ => ⟨S_, .i32⟩
  | .hbm, ⟨28, _⟩ => ⟨S300000, .i32⟩
  | .hbm, ⟨29, _⟩ => ⟨S300000, .i1⟩
  | .hbm, ⟨30, _⟩ => ⟨S_, .i32⟩
  | .hbm, ⟨31, _⟩ => ⟨S300000, .i32⟩
  | .hbm, ⟨32, _⟩ => ⟨S300000, .i32⟩
  | .hbm, ⟨33, _⟩ => ⟨S300000, .i32⟩
  | .hbm, ⟨34, _⟩ => ⟨S300000x1, .i32⟩
  | .hbm, ⟨35, _⟩ => ⟨S300000x128, .f32⟩
  | .hbm, ⟨36, _⟩ => ⟨S300000x128, .f32⟩
  | .hbm, ⟨37, _⟩ => ⟨S_, .i32⟩
  | .hbm, ⟨38, _⟩ => ⟨S300000, .i32⟩
  | .hbm, ⟨39, _⟩ => ⟨S300000, .i1⟩
  | .hbm, ⟨40, _⟩ => ⟨S_, .i32⟩
  | .hbm, ⟨41, _⟩ => ⟨S300000, .i32⟩
  | .hbm, ⟨42, _⟩ => ⟨S300000, .i32⟩
  | .hbm, ⟨43, _⟩ => ⟨S300000, .i32⟩
  | .hbm, ⟨44, _⟩ => ⟨S300000x1, .i32⟩
  | .hbm, ⟨45, _⟩ => ⟨S300000x128, .f32⟩
  | .hbm, ⟨46, _⟩ => ⟨S300000x128, .f32⟩
  | .hbm, ⟨47, _⟩ => ⟨S1x128, .f32⟩
  | .hbm, ⟨48, _⟩ => ⟨S300000x128, .f32⟩
  | .hbm, ⟨49, _⟩ => ⟨S300000x128, .f32⟩
  | .hbm, ⟨50, _⟩ => ⟨S300000x128, .f32⟩
  | .hbm, ⟨51, _⟩ => ⟨S300000x128, .f32⟩
  | .hbm, ⟨52, _⟩ => ⟨S_, .f32⟩
  | .hbm, ⟨53, _⟩ => ⟨S50000x128, .f32⟩
  | .hbm, ⟨54, _⟩ => ⟨S300000x1, .i32⟩
  | .hbm, ⟨55, _⟩ => ⟨S50000x128, .f32⟩
  | .hbm, ⟨56, _⟩ => ⟨S_, .i32⟩
  | .hbm, ⟨57, _⟩ => ⟨S300000, .i32⟩
  | .hbm, ⟨58, _⟩ => ⟨S300000, .i1⟩
  | .hbm, ⟨59, _⟩ => ⟨S_, .i32⟩
  | .hbm, ⟨60, _⟩ => ⟨S300000, .i32⟩
  | .hbm, ⟨61, _⟩ => ⟨S300000, .i32⟩
  | .hbm, ⟨62, _⟩ => ⟨S300000, .i32⟩
  | .hbm, ⟨63, _⟩ => ⟨S300000x1, .i32⟩
  | .hbm, ⟨64, _⟩ => ⟨S300000x128, .f32⟩
  | .hbm, ⟨65, _⟩ => ⟨S_, .i32⟩
  | .hbm, ⟨66, _⟩ => ⟨S300000, .i32⟩
  | .hbm, ⟨67, _⟩ => ⟨S300000, .i1⟩
  | .hbm, ⟨68, _⟩ => ⟨S_, .i32⟩
  | .hbm, ⟨69, _⟩ => ⟨S300000, .i32⟩
  | .hbm, ⟨70, _⟩ => ⟨S300000, .i32⟩
  | .hbm, ⟨71, _⟩ => ⟨S300000, .i32⟩
  | .hbm, ⟨72, _⟩ => ⟨S300000x1, .i32⟩
  | .hbm, ⟨73, _⟩ => ⟨S300000x128, .f32⟩
  | .hbm, ⟨74, _⟩ => ⟨S300000x128, .f32⟩
  | .hbm, ⟨75, _⟩ => ⟨S_, .i32⟩
  | .hbm, ⟨76, _⟩ => ⟨S300000, .i32⟩
  | .hbm, ⟨77, _⟩ => ⟨S300000, .i1⟩
  | .hbm, ⟨78, _⟩ => ⟨S_, .i32⟩
  | .hbm, ⟨79, _⟩ => ⟨S300000, .i32⟩
  | .hbm, ⟨80, _⟩ => ⟨S300000, .i32⟩
  | .hbm, ⟨81, _⟩ => ⟨S300000, .i32⟩
  | .hbm, ⟨82, _⟩ => ⟨S300000x1, .i32⟩
  | .hbm, ⟨83, _⟩ => ⟨S300000x128, .f32⟩
  | .hbm, ⟨84, _⟩ => ⟨S300000x128, .f32⟩
  | .hbm, ⟨85, _⟩ => ⟨S1x128, .f32⟩
  | .hbm, ⟨86, _⟩ => ⟨S300000x128, .f32⟩
  | .hbm, ⟨87, _⟩ => ⟨S300000x128, .f32⟩
  | .hbm, ⟨88, _⟩ => ⟨S300000x128, .f32⟩
  | .hbm, ⟨89, _⟩ => ⟨S300000x128, .f32⟩
  | .hbm, ⟨90, _⟩ => ⟨S_, .f32⟩
  | .hbm, ⟨91, _⟩ => ⟨S100000x128, .f32⟩
  | .hbm, ⟨92, _⟩ => ⟨S300000x1, .i32⟩
  | .hbm, ⟨93, _⟩ => ⟨S100000x128, .f32⟩
  | .hbm, ⟨94, _⟩ => ⟨S100000x128, .f32⟩
  | .hbm, ⟨95, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S128, .f32⟩
  | .local _ .vmem, ⟨13, _⟩ => ⟨S128x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3_0 : Ref sig .tc := ⟨.hbm, 16, rfl⟩
abbrev main_v3_1 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S300000 : S_.BroadcastsInDim S300000 (![] : Fin 0 → Fin S300000.rank)
  bcast_S300000_S300000x1_0 : S300000.BroadcastsInDim S300000x1 (![0] : Fin 1 → Fin S300000x1.rank)
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  bcast_S300000x1_S300000x128_0_1 : S300000x1.BroadcastsInDim S300000x128 (![0, 1] : Fin 2 → Fin S300000x128.rank)
  bcast_S_S50000x128 : S_.BroadcastsInDim S50000x128 (![] : Fin 0 → Fin S50000x128.rank)
  bcast_S_S100000x128 : S_.BroadcastsInDim S100000x128 (![] : Fin 0 → Fin S100000x128.rank)
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  dot_S2000x128_S128x128_S2000x128_1_0_0_1_n_n_wf : DotDims.WF S2000x128 S128x128 S2000x128 [1] [0] [0] [1] [] []
  gather_S100000x128_S300000x1_S300000x128_1_0_n_n_0_1_1128_wf : GatherDims.WF S100000x128 S300000x1 S300000x128 [1] [0] [] [0] [] 1 ![1, 128]
  gather_S50000x128_S300000x1_S300000x128_1_0_n_n_0_1_1128_wf : GatherDims.WF S50000x128 S300000x1 S300000x128 [1] [0] [] [0] [] 1 ![1, 128]
  scatter_S50000x128_S300000x1_S300000x128_1_0_0_1_wf : ScatterDims.WF S50000x128 S300000x1 S300000x128 [1] [0] [0] 1
  scatter_S100000x128_S300000x1_S300000x128_1_0_0_1_wf : ScatterDims.WF S100000x128 S300000x1 S300000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v3_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S300000 : Shape := ⟨1, ![300000]⟩
abbrev S300000x1 : Shape := ⟨2, ![300000, 1]⟩
abbrev S1x128 : Shape := ⟨2, ![1, 128]⟩
abbrev S_ : Shape := ⟨0, ![]⟩
abbrev S300000x128 : Shape := ⟨2, ![300000, 128]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128, .f32⟩
  | 4 => ⟨S128x128, .f32⟩
  | 5 => ⟨S128, .f32⟩
  | 6 => ⟨S300000, .i32⟩
  | 7 => ⟨S300000, .i32⟩
  | 8 => ⟨S300000x1, .f32⟩
  | 9 => ⟨S300000, .i32⟩
  | 10 => ⟨S300000, .i32⟩
  | 11 => ⟨S300000x1, .f32⟩
  | 12 => ⟨S128x128, .f32⟩
  | 13 => ⟨S100000x128, .f32⟩
  | 14 => ⟨S1x128, .f32⟩
  | 15 => ⟨S100000x128, .f32⟩
  | 16 => ⟨S100000x128, .f32⟩
  | 17 => ⟨S128x128, .f32⟩
  | 18 => ⟨S50000x128, .f32⟩
  | 19 => ⟨S1x128, .f32⟩
  | 20 => ⟨S50000x128, .f32⟩
  | 21 => ⟨S50000x128, .f32⟩
  | 22 => ⟨S128x128, .f32⟩
  | 23 => ⟨S100000x128, .f32⟩
  | 24 => ⟨S128x128, .f32⟩
  | 25 => ⟨S50000x128, .f32⟩
  | 26 => ⟨S_, .i32⟩
  | 27 => ⟨S300000, .i32⟩
  | 28 => ⟨S300000, .i1⟩
  | 29 => ⟨S_, .i32⟩
  | 30 => ⟨S300000, .i32⟩
  | 31 => ⟨S300000, .i32⟩
  | 32 => ⟨S300000, .i32⟩
  | 33 => ⟨S300000x1, .i32⟩
  | 34 => ⟨S300000x128, .f32⟩
  | 35 => ⟨S_, .i32⟩
  | 36 => ⟨S300000, .i32⟩
  | 37 => ⟨S300000, .i1⟩
  | 38 => ⟨S_, .i32⟩
  | 39 => ⟨S300000, .i32⟩
  | 40 => ⟨S300000, .i32⟩
  | 41 => ⟨S300000, .i32⟩
  | 42 => ⟨S300000x1, .i32⟩
  | 43 => ⟨S300000x128, .f32⟩
  | 44 => ⟨S300000x128, .f32⟩
  | 45 => ⟨S_, .i32⟩
  | 46 => ⟨S300000, .i32⟩
  | 47 => ⟨S300000, .i1⟩
  | 48 => ⟨S_, .i32⟩
  | 49 => ⟨S300000, .i32⟩
  | 50 => ⟨S300000, .i32⟩
  | 51 => ⟨S300000, .i32⟩
  | 52 => ⟨S300000x1, .i32⟩
  | 53 => ⟨S300000x128, .f32⟩
  | 54 => ⟨S300000x128, .f32⟩
  | 55 => ⟨S1x128, .f32⟩
  | 56 => ⟨S300000x128, .f32⟩
  | 57 => ⟨S300000x128, .f32⟩
  | 58 => ⟨S300000x128, .f32⟩
  | 59 => ⟨S300000x128, .f32⟩
  | 60 => ⟨S_, .f32⟩
  | 61 => ⟨S50000x128, .f32⟩
  | 62 => ⟨S300000x1, .i32⟩
  | 63 => ⟨S50000x128, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x128, .f32⟩
  | 73 => ⟨S_, .i32⟩
  | 74 => ⟨S300000, .i32⟩
  | 75 => ⟨S300000, .i1⟩
  | 76 => ⟨S_, .i32⟩
  | 77 => ⟨S300000, .i32⟩
  | 78 => ⟨S300000, .i32⟩
  | 79 => ⟨S300000, .i32⟩
  | 80 => ⟨S300000x1, .i32⟩
  | 81 => ⟨S300000x128, .f32⟩
  | 82 => ⟨S300000x128, .f32⟩
  | 83 => ⟨S_, .i32⟩
  | 84 => ⟨S300000, .i32⟩
  | 85 => ⟨S300000, .i1⟩
  | 86 => ⟨S_, .i32⟩
  | 87 => ⟨S300000, .i32⟩
  | 88 => ⟨S300000, .i32⟩
  | 89 => ⟨S300000, .i32⟩
  | 90 => ⟨S300000x1, .i32⟩
  | 91 => ⟨S300000x128, .f32⟩
  | 92 => ⟨S300000x128, .f32⟩
  | 93 => ⟨S1x128, .f32⟩
  | 94 => ⟨S300000x128, .f32⟩
  | 95 => ⟨S300000x128, .f32⟩
  | 96 => ⟨S300000x128, .f32⟩
  | 97 => ⟨S300000x128, .f32⟩
  | 98 => ⟨S_, .f32⟩
  | 99 => ⟨S100000x128, .f32⟩
  | 100 => ⟨S300000x1, .i32⟩
  | 101 => ⟨S100000x128, .f32⟩
  | 102 => ⟨S100000x128, .f32⟩
  | 103 => ⟨S50000x128, .f32⟩
  | 104 => ⟨S_, .f32⟩
  | 105 => ⟨S100000x128, .f32⟩
  | 106 => ⟨S100000x128, .i1⟩
  | 107 => ⟨S_, .f32⟩
  | 108 => ⟨S100000x128, .f32⟩
  | 109 => ⟨S100000x128, .f32⟩
  | 110 => ⟨S100000x128, .f32⟩
  | 111 => ⟨S100000x128, .f32⟩
  | 112 => ⟨S_, .f32⟩
  | 113 => ⟨S100000, .f32⟩
  | 114 => ⟨S100000x1, .f32⟩
  | 115 => ⟨S100000x1, .f32⟩
  | 116 => ⟨S_, .f32⟩
  | 117 => ⟨S100000x1, .f32⟩
  | 118 => ⟨S100000x1, .f32⟩
  | 119 => ⟨S100000x128, .f32⟩
  | 120 => ⟨S100000x128, .f32⟩
  | 121 => ⟨S_, .f32⟩
  | 122 => ⟨S50000x128, .f32⟩
  | 123 => ⟨S50000x128, .i1⟩
  | 124 => ⟨S_, .f32⟩
  | 125 => ⟨S50000x128, .f32⟩
  | 126 => ⟨S50000x128, .f32⟩
  | 127 => ⟨S50000x128, .f32⟩
  | _ => ⟨S100000x128, .f32⟩

abbrev hbmTy0_1 (i : Nat) : BufTy := match i % 128 with
  | 0 => ⟨S50000x128, .f32⟩
  | 1 => ⟨S_, .f32⟩
  | 2 => ⟨S50000, .f32⟩
  | 3 => ⟨S50000x1, .f32⟩
  | 4 => ⟨S50000x1, .f32⟩
  | 5 => ⟨S_, .f32⟩
  | 6 => ⟨S50000x1, .f32⟩
  | 7 => ⟨S50000x1, .f32⟩
  | 8 => ⟨S50000x128, .f32⟩
  | 9 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_3 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_5 : Ref sig .tc := ⟨.hbm, 64, rfl⟩
abbrev main_v45 : Ref sig .tc := ⟨.hbm, 65, rfl⟩
abbrev main_v46 : Ref sig .tc := ⟨.hbm, 66, rfl⟩
abbrev main_c_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_c_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_9 : Ref sig .tc := ⟨.hbm, 83, rfl⟩
abbrev main_v60 : Ref sig .tc := ⟨.hbm, 84, rfl⟩
abbrev main_v61 : Ref sig .tc := ⟨.hbm, 85, rfl⟩
abbrev main_c_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_11 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩
abbrev main_v79 : Ref sig .tc := ⟨.hbm, 106, rfl⟩
abbrev main_cst_13 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_14 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_15 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_16 : Ref sig .tc := ⟨.hbm, 121, rfl⟩
abbrev main_v91 : Ref sig .tc := ⟨.hbm, 122, rfl⟩
abbrev main_v92 : Ref sig .tc := ⟨.hbm, 123, rfl⟩
abbrev main_cst_17 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_19 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S50000x128_0_1 : S1x128.BroadcastsInDim S50000x128 (![0, 1] : Fin 2 → Fin S50000x128.rank)
  bcast_S_S300000 : S_.BroadcastsInDim S300000 (![] : Fin 0 → Fin S300000.rank)
  bcast_S300000_S300000x1_0 : S300000.BroadcastsInDim S300000x1 (![0] : Fin 1 → Fin S300000x1.rank)
  bcast_S1x128_S300000x128_0_1 : S1x128.BroadcastsInDim S300000x128 (![0, 1] : Fin 2 → Fin S300000x128.rank)
  bcast_S300000x1_S300000x128_0_1 : S300000x1.BroadcastsInDim S300000x128 (![0, 1] : Fin 2 → Fin S300000x128.rank)
  bcast_S_S50000x128 : S_.BroadcastsInDim S50000x128 (![] : Fin 0 → Fin S50000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  gather_S100000x128_S300000x1_S300000x128_1_0_n_n_0_1_1128_wf : GatherDims.WF S100000x128 S300000x1 S300000x128 [1] [0] [] [0] [] 1 ![1, 128]
  gather_S50000x128_S300000x1_S300000x128_1_0_n_n_0_1_1128_wf : GatherDims.WF S50000x128 S300000x1 S300000x128 [1] [0] [] [0] [] 1 ![1, 128]
  scatter_S50000x128_S300000x1_S300000x128_1_0_0_1_wf : ScatterDims.WF S50000x128 S300000x1 S300000x128 [1] [0] [0] 1
  scatter_S100000x128_S300000x1_S300000x128_1_0_0_1_wf : ScatterDims.WF S100000x128 S300000x1 S300000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf

class Facts : Prop extends Facts₀ where

variable [Facts]
-- ==== Proof.Spec.lean ====
/-
  THE TWO DENSE STAGES AS FUNCTIONS OF WHOLE ARRAYS, over the extended reals, entry by entry.

  A node table x of M rows of 128 features is sent through a weight matrix w (stored so that the product is x · w) and,
  for the first projection, a bias row b is added:
      projBias x w b (r, c) = (sum over k of x (r, k) * w (k, c)) + b (c),      proj x w (r, c) = sum over k of x (r, k) * w (k, c).
  The readout adds the aggregated messages a to the projection p, applies the leaky rectifier with slope 0.2
      act p a (r, c) = h  if h > 0,  else 0.2 * h,      h = p (r, c) + a (r, c),
  and divides each row by its Euclidean length, never less than the floor 1e-12:
      readout p a (r, c) = act p a (r, c) / max (sqrt (sum over k of act p a (r, k) ^ 2)) 1e-12.
  The two literals are kept as the f32 words both programs print; they are never evaluated.
  Every entry depends on ONE row of the tables only: that is what lets a tile of rows compute its own rows.
-/
import Idealize.ShloMosaic.PureOps.Ideal
import Idealize.ShloMosaic.Lib.ValueIdx

noncomputable section

open scoped BigOperators

namespace Cert.Spec

open Idealize.ShloMosaic Idealize.ShloMosaic.ValueIdx

/-- An [M, N] table of extended reals. -/
abbrev Mat (M N : ℕ) := (⟨2, ![M, N]⟩ : Shape).Idx → EReal
/-- A row of N extended reals. -/
abbrev Row (N : ℕ) := (⟨1, ![N]⟩ : Shape).Idx → EReal

/-- Entry (r, c) of the product x · w. -/
def linAt {M K N : ℕ} (x : Mat M K) (w : Mat K N) (r : Fin M) (c : Fin N) : EReal :=
  ∑ k : Fin K, x (ix2 r k) * w (ix2 k c)

/-- The product x · w. -/
def proj {M : ℕ} (x : Mat M 128) (w : Mat 128 128) : Mat M 128 :=
  fun i => linAt x w (i 0 : Fin M) (i 1 : Fin 128)

/-- The product x · w with the bias row added to every row. -/
def projBias {M : ℕ} (x : Mat M 128) (w : Mat 128 128) (b : Row 128) : Mat M 128 :=
  fun i => linAt x w (i 0 : Fin M) (i 1 : Fin 128) + b (ix1 (i 1 : Fin 128))

theorem proj_apply {M : ℕ} (x : Mat M 128) (w : Mat 128 128) (r : Fin M) (c : Fin 128) :
    proj x w (ix2 r c) = linAt x w r c := rfl

theorem projBias_apply {M : ℕ} (x : Mat M 128) (w : Mat 128 128) (b : Row 128) (r : Fin M) (c : Fin 128) :
    projBias x w b (ix2 r c) = linAt x w r c + b (ix1 c) := rfl

/-- The leaky rectifier with slope 0.2 (the f32 word 0x3E4CCCCD), compared against +0.0. -/
def lrelu (h : EReal) : EReal :=
  Scalar.select (Ideal.cmp .ogt h (Ideal.ofBits .f32 0x00000000#32)) h (Ideal.ofBits .f32 0x3E4CCCCD#32 * h)

/-- The activated entry (r, c): the rectifier of projection plus aggregate. -/
def act {M : ℕ} (p a : Mat M 128) (r : Fin M) (c : Fin 128) : EReal :=
  lrelu (p (ix2 r c) + a (ix2 r c))

/-- The sum of the squares of row r of the activated table. -/
def rowSq {M : ℕ} (p a : Mat M 128) (r : Fin M) : EReal :=
  ∑ k : Fin 128, act p a r k * act p a r k

/-- Entry (r, c) of the readout: the activated entry over the row's length, floored at the f32 word 0x2B8CBCCC. -/
def readoutAt {M : ℕ} (p a : Mat M 128) (r : Fin M) (c : Fin 128) : EReal :=
  Ideal.div (act p a r c) (max (Ideal.sqrt (rowSq p a r)) (Ideal.ofBits .f32 0x2B8CBCCC#32))

/-- The readout of a whole table. -/
def readout {M : ℕ} (p a : Mat M 128) : Mat M 128 :=
  fun i => readoutAt p a (i 0 : Fin M) (i 1 : Fin 128)

theorem readout_apply {M : ℕ} (p a : Mat M 128) (r : Fin M) (c : Fin 128) :
    readout p a (ix2 r c) = readoutAt p a r c := rfl

end Cert.Spec

end
-- ==== Proof.Mid.lean ====
/-
  THE MESSAGE STAGE BOTH PROGRAMS SHARE, as one function of the projected tables.

  For an edge type with source table S (N_s rows) and destination table D (N_d rows), edge e carries
      msg (e, ·) = norm (e) * ( P_S (src e, ·) + Q_S (src e, ·) + Q_D (dst e, ·) + b2 ),
  and the messages are summed per destination row. Both programs spell this with the same host operations in the same
  order: the wrap of negative row numbers (add the table's height where the number is negative), the take of rows, three
  sums, the bias row broadcast, the product with the edge weight, and the accumulating scatter into a table of zeros.
  They are named here once, and never opened: the two programs agree on this stage because it is the same function applied to equal
  tables.
-/
import proofs.«130975_j12936441495793_1_alg».proof.Proof.Gen.KernelIdeal

noncomputable section

namespace Cert.Mid

open Cert.KernelIdeal Cert.KernelIdeal.Facts₀ Idealize.ShloMosaic Idealize.ShloMosaic.TcCoe

variable {F : FTy → Type} [FloatOps F]

/-- Row numbers into a table of 100000 rows: a negative number has 100000 added; laid out as a column. -/
def colU (s : (⟨S300000, .i32⟩ : BufTy).Contents (Elt F)) : (⟨S300000x1, .i32⟩ : BufTy).Contents (Elt F) :=
  broadcastInDim S300000x1 ![0] bcast_S300000_S300000x1_0
    (select (cmpi .slt s (broadcastInDim S300000 ![] bcast_S_S300000 (constantI S_ 32 0#32)))
      (addi s (broadcastInDim S300000 ![] bcast_S_S300000 (constantI S_ 32 100000#32))) s)

/-- Row numbers into a table of 50000 rows: a negative number has 50000 added; laid out as a column. -/
def colI (s : (⟨S300000, .i32⟩ : BufTy).Contents (Elt F)) : (⟨S300000x1, .i32⟩ : BufTy).Contents (Elt F) :=
  broadcastInDim S300000x1 ![0] bcast_S300000_S300000x1_0
    (select (cmpi .slt s (broadcastInDim S300000 ![] bcast_S_S300000 (constantI S_ 32 0#32)))
      (addi s (broadcastInDim S300000 ![] bcast_S_S300000 (constantI S_ 32 50000#32))) s)

/-- The bias row laid out over all edges. -/
def biasRows (b2 : (⟨S128, .f32⟩ : BufTy).Contents (Elt F)) : (⟨S300000x128, .f32⟩ : BufTy).Contents (Elt F) :=
  broadcastInDim S300000x128 ![0, 1] bcast_S1x128_S300000x128_0_1 (broadcastInDim S1x128 ![1] bcast_S128_S1x128_1 b2)

/-- User → item edges: messages summed per item. -/
def aggItem (P1u Q2u : (⟨S100000x128, .f32⟩ : BufTy).Contents (Elt F)) (Q2i : (⟨S50000x128, .f32⟩ : BufTy).Contents (Elt F))
    (b2 : (⟨S128, .f32⟩ : BufTy).Contents (Elt F)) (src dst : (⟨S300000, .i32⟩ : BufTy).Contents (Elt F))
    (norm : (⟨S300000x1, .f32⟩ : BufTy).Contents (Elt F)) : (⟨S50000x128, .f32⟩ : BufTy).Contents (Elt F) :=
  Host.scatterAdd scatter_S50000x128_S300000x1_S300000x128_1_0_0_1
    (broadcastInDim S50000x128 ![] bcast_S_S50000x128 (constant S_ .f32 0x00000000#32))
    (broadcastInDim S300000x1 ![0] bcast_S300000_S300000x1_0 dst)
    (mulf (broadcastInDim S300000x128 ![0, 1] bcast_S300000x1_S300000x128_0_1 norm)
      (addf (addf (addf (Host.gather gather_S100000x128_S300000x1_S300000x128_1_0_n_n_0_1_1128 P1u (colU src))
                        (Host.gather gather_S100000x128_S300000x1_S300000x128_1_0_n_n_0_1_1128 Q2u (colU src)))
                  (Host.gather gather_S50000x128_S300000x1_S300000x128_1_0_n_n_0_1_1128 Q2i (colI dst)))
            (biasRows b2)))

/-- Item → user edges: messages summed per user. -/
def aggUser (P1i Q2i : (⟨S50000x128, .f32⟩ : BufTy).Contents (Elt F)) (Q2u : (⟨S100000x128, .f32⟩ : BufTy).Contents (Elt F))
    (b2 : (⟨S128, .f32⟩ : BufTy).Contents (Elt F)) (src dst : (⟨S300000, .i32⟩ : BufTy).Contents (Elt F))
    (norm : (⟨S300000x1, .f32⟩ : BufTy).Contents (Elt F)) : (⟨S100000x128, .f32⟩ : BufTy).Contents (Elt F) :=
  Host.scatterAdd scatter_S100000x128_S300000x1_S300000x128_1_0_0_1
    (broadcastInDim S100000x128 ![] bcast_S_S100000x128 (constant S_ .f32 0x00000000#32))
    (broadcastInDim S300000x1 ![0] bcast_S300000_S300000x1_0 dst)
    (mulf (broadcastInDim S300000x128 ![0, 1] bcast_S300000x1_S300000x128_0_1 norm)
      (addf (addf (addf (Host.gather gather_S50000x128_S300000x1_S300000x128_1_0_n_n_0_1_1128 P1i (colI src))
                        (Host.gather gather_S50000x128_S300000x1_S300000x128_1_0_n_n_0_1_1128 Q2i (colI src)))
                  (Host.gather gather_S100000x128_S300000x1_S300000x128_1_0_n_n_0_1_1128 Q2u (colU dst)))
            (biasRows b2)))

end Cert.Mid

end
-- ==== Proof.Whole.lean ====
/-
  THE WHOLE LAYER AS ONE FUNCTION OF THE TWELVE ARGUMENT ARRAYS, the value both programs are shown to compute.

  With W1ᵀ and W2ᵀ the stored weight matrices transposed,
      P_u = x_user · W1ᵀ + b1,   Q_u = x_user · W2ᵀ,   P_i = x_item · W1ᵀ + b1,   Q_i = x_item · W2ᵀ,
  the messages along item → user edges are summed per user and those along user → item edges per item (the shared message
  stage), and each node type's result is the readout (leaky rectifier, then rows scaled to unit length) of its own first
  projection plus its aggregate:
      h_user = readout P_u (aggUser P_i Q_i Q_u b2 src_iu dst_iu norm_iu),
      h_item = readout P_i (aggItem P_u Q_u Q_i b2 src_ui dst_ui norm_ui).
-/
import proofs.«130975_j12936441495793_1_alg».proof.Proof.Spec
import proofs.«130975_j12936441495793_1_alg».proof.Proof.Mid

noncomputable section

namespace Cert.Whole

open Cert.KernelIdeal Cert.KernelIdeal.Facts₀ Idealize.ShloMosaic Idealize.ShloMosaic.TcCoe

/-- A stored 128 × 128 weight matrix, transposed. -/
def tr (w : (⟨S128x128, .f32⟩ : BufTy).Contents (Elt Ideal)) : (⟨S128x128, .f32⟩ : BufTy).Contents (Elt Ideal) :=
  transpose S128x128 [1, 0] w transposes_S128x128_S128x128_1_0

variable (xu : (⟨S100000x128, .f32⟩ : BufTy).Contents (Elt Ideal)) (xi : (⟨S50000x128, .f32⟩ : BufTy).Contents (Elt Ideal))
  (W1 : (⟨S128x128, .f32⟩ : BufTy).Contents (Elt Ideal)) (b1 : (⟨S128, .f32⟩ : BufTy).Contents (Elt Ideal))
  (W2 : (⟨S128x128, .f32⟩ : BufTy).Contents (Elt Ideal)) (b2 : (⟨S128, .f32⟩ : BufTy).Contents (Elt Ideal))

/-- First projection of the users. -/
def P1u : (⟨S100000x128, .f32⟩ : BufTy).Contents (Elt Ideal) := Cert.Spec.projBias (M := 100000) xu (tr W1) b1
/-- Second projection of the users. -/
def Q2u : (⟨S100000x128, .f32⟩ : BufTy).Contents (Elt Ideal) := Cert.Spec.proj (M := 100000) xu (tr W2)
/-- First projection of the items. -/
def P1i : (⟨S50000x128, .f32⟩ : BufTy).Contents (Elt Ideal) := Cert.Spec.projBias (M := 50000) xi (tr W1) b1
/-- Second projection of the items. -/
def Q2i : (⟨S50000x128, .f32⟩ : BufTy).Contents (Elt Ideal) := Cert.Spec.proj (M := 50000) xi (tr W2)

/-- The users' result. -/
def hUser (src_iu dst_iu : (⟨S300000, .i32⟩ : BufTy).Contents (Elt Ideal)) (norm_iu : (⟨S300000x1, .f32⟩ : BufTy).Contents (Elt Ideal)) :
    (⟨S100000x128, .f32⟩ : BufTy).Contents (Elt Ideal) :=
  Cert.Spec.readout (M := 100000) (P1u xu W1 b1)
    (Cert.Mid.aggUser (F := Ideal) (P1i xi W1 b1) (Q2i xi W2) (Q2u xu W2) b2 src_iu dst_iu norm_iu)

/-- The items' result. -/
def hItem (src_ui dst_ui : (⟨S300000, .i32⟩ : BufTy).Contents (Elt Ideal)) (norm_ui : (⟨S300000x1, .f32⟩ : BufTy).Contents (Elt Ideal)) :
    (⟨S50000x128, .f32⟩ : BufTy).Contents (Elt Ideal) :=
  Cert.Spec.readout (M := 50000) (P1i xi W1 b1)
    (Cert.Mid.aggItem (F := Ideal) (P1u xu W1 b1) (Q2u xu W2) (Q2i xi W2) b2 src_ui dst_ui norm_ui)

end Cert.Whole

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.ProjTile.lean ====
/-
  One tile of the projection kernel, entry by entry, over the extended reals.

  The kernel's body takes a block x of 2000 rows of a node table, two weight matrices w1, w2 and a bias row b, and stores
      x · w1 + b   (the bias row added to every row of the product)      and      x · w2.
  Over the extended reals a change of format (f32 to bf16) is the identity, a cast to the same shape is the identity, and
  each product starts from the zero accumulator; the bias row [128] is first seen as a [1, 128] matrix and then repeated
  down the 2000 rows. So entry (p, q) of the first store is
      (sum over k of x (p, k) * w1 (k, q)) + b (q)
  and entry (p, q) of the second is  sum over k of x (p, k) * w2 (k, q):  each depends on row p of the block only.
-/
import proofs.«130975_j12936441495793_1_alg».proof.Proof.Gen.KernelIdeal.Skeleton
import proofs.«130975_j12936441495793_1_alg».proof.Proof.Spec
import proofs.«130975_j12936441495793_1_alg».proof.Proof.LibPlainMatmul
import Idealize.ShloMosaic.Lib.Pipeline.Value

set_option maxRecDepth 16384

noncomputable section

open scoped BigOperators

namespace Cert.Hand.ProjTile

open Cert.KernelIdeal Cert.KernelIdeal.Gen Idealize.ShloMosaic Idealize.ShloMosaic.ValueIdx

/-- The kernel's product contracts the left operand's axis 1 with the right operand's axis 0 and has no batch axes. -/
theorem dims_plain : dot_S2000x128_S128x128_S2000x128_1_0_0_1_n_n = DotDims.plain 2000 128 128 := rfl

/-- The bias row seen as a [1, 128] matrix and repeated down 2000 rows reads, at (p, q), the row's entry q. -/
theorem bias_apply (b : Vec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q) fun a => ?_).trans ?_
  · match a with
    | ⟨0, _⟩ => rfl
    | ⟨1, _⟩ => rfl
  · refine (shapeCast_addUnit_apply ![128] b shapeCasts_S128_S1x128 (ix2 (0 : Fin 1) q)).trans ?_
    exact congrArg b (funext fun d => by match d with | ⟨0, _⟩ => rfl)

/-- The product of the block with a weight matrix, both passed through the format change and the weight through the cast to
    its own shape, into the zero accumulator: entry (p, q) is the sum over k of x (p, k) * w (k, q). -/
theorem product_apply (x : Vec Ideal S2000x128 .f32) (w : Vec Ideal S128x128 .f32) (p : Fin 2000) (q : Fin 128) :
    matmul dot_S2000x128_S128x128_S2000x128_1_0_0_1_n_n none (k0_pay1 x)
        (truncf .bf16 (shapeCast S128x128 w shapeCasts_S128x128_S128x128) bitsLt_bf16_f32)
        (constant (F := Ideal) S2000x128 .f32 0x00000000#32) (ix2 p q)
      = Cert.Spec.linAt x w p q := by
  rw [dims_plain]
  refine (Cert.PlainMatmul.apply none _ _ p q).trans ?_
  unfold Cert.Spec.linAt
  refine Finset.sum_congr rfl fun k _ => ?_
  show x (ix2 p k) * shapeCast S128x128 w shapeCasts_S128x128_S128x128 (ix2 k q) = x (ix2 p k) * w (ix2 k q)
  rw [shapeCast_self]

/-- Entry (p, q) of the first store: the product's entry plus the bias row's entry q. -/
theorem pay2_apply (x0 : Vec Ideal S2000x128 .f32) (x1 : Vec Ideal S128x128 .f32) (x2 : Vec Ideal S128 .f32)
    (p : Fin 2000) (q : Fin 128) :
    k0_pay2 x0 x1 x2 (ix2 p q) = Cert.Spec.linAt x0 x1 p q + x2 (ix1 q) := by
  unfold k0_pay2
  refine (addf_apply _ _ _).trans ?_
  rw [product_apply, bias_apply]

/-- Entry (p, q) of the second store: the product's entry. -/
theorem pay3_apply (x0 : Vec Ideal S2000x128 .f32) (x5 : Vec Ideal S128x128 .f32) (p : Fin 2000) (q : Fin 128) :
    k0_pay3 x0 x5 (ix2 p q) = Cert.Spec.linAt x0 x5 p q := by
  unfold k0_pay3
  exact product_apply x0 x5 p q

/-- The second projection kernel's body is the same text as the first's. -/
theorem k1_pay2_eq : @k1_pay2 Ideal _ = @k0_pay2 Ideal _ := rfl
theorem k1_pay3_eq : @k1_pay3 Ideal _ = @k0_pay3 Ideal _ := rfl

end Cert.Hand.ProjTile

end
-- ==== Proof.Region0.lean ====
/-
  THE PROJECTION OF THE FIRST NODE TABLE, from tiles of rows to whole arrays.

  The node table x has 100000 rows of 128 features. The kernel runs over 50 points; point t takes rows 2000 t … 2000 t + 1999
  of x (its block along the rows; the 128 columns are one block), the two weight matrices and the bias row WHOLE at every
  point (their block index is 0 on every axis), and writes back rows 2000 t … 2000 t + 1999 of the two results
      p = x · w1 + b      and      q = x · w2.
  Entry (r, s) of either result depends on row r of x only, and row r = 2000 t + y of x is row y of point t's block: so what
  point t writes back is exactly rows 2000 t … of the whole-array function (the tile lemma at each entry). Every row r lies
  in the block of point r / 2000, so the blocks cover the arrays, and each array ends holding the whole-array function.
  A block's coordinate in its array is always  block index × block size + 1 × the coordinate inside the block.
-/
import proofs.«130975_j12936441495793_1_alg».proof.Proof.Gen.KernelIdeal.Frame
import proofs.«130975_j12936441495793_1_alg».proof.Proof.Spec
import proofs.«130975_j12936441495793_1_alg».proof.Proof.ProjTile
import Idealize.ShloMosaic.Lib.Pipeline.Value

set_option maxRecDepth 16384

noncomputable section

open Idealize.ShloMosaic Idealize.ShloMosaic.TcCoe Idealize.SL.Sem
open Idealize.ShloMosaic.Pipeline (Dat)
open scoped BigOperators

namespace Cert.Hand.Region0

open Cert.KernelIdeal Cert.KernelIdeal.Gen Idealize.ShloMosaic.ValueIdx

/-! ## One entry of a tile against the whole arrays, over variables of the literal types -/

/-- If row y of the block x0 is row 2000 n + y of the table A, and the block's other operands are the whole weight matrix W
    and bias row B, then entry j of the first store is entry i of x · W + B whenever i is j moved down by 2000 n rows. -/
theorem tile_bias (A : Cert.Spec.Mat 100000 128) (W : Cert.Spec.Mat 128 128) (B : Cert.Spec.Row 128)
    (x0 : Vec Ideal S2000x128 .f32) (x1 : Vec Ideal S128x128 .f32) (x2 : Vec Ideal S128 .f32) (n : Nat)
    (h0 : ∀ (y : S2000x128.Idx) (k : S100000x128.Idx), (k 0).val = n * 2000 + (y 0).val → (k 1).val = (y 1).val → x0 y = A k)
    (h1 : x1 = W) (h2 : x2 = B) (j : S2000x128.Idx) (i : S100000x128.Idx)
    (hi0 : (i 0).val = n * 2000 + (j 0).val) (hi1 : (i 1).val = (j 1).val) :
    k0_pay2 x0 x1 x2 j = Cert.Spec.projBias (M := 100000) A W B i := by
  obtain ⟨p, q, rfl⟩ : ∃ (p : Fin 2000) (q : Fin 128), j = ix2 p q := ⟨j 0, j 1, eq_ix2 j⟩
  obtain ⟨r, s, rfl⟩ : ∃ (r : Fin 100000) (s : Fin 128), i = ix2 r s := ⟨i 0, i 1, eq_ix2 i⟩
  have hr : r.val = n * 2000 + p.val := hi0
  obtain rfl : s = q := Fin.ext hi1
  subst h1 h2
  rw [Cert.Hand.ProjTile.pay2_apply, Cert.Spec.projBias_apply]
  refine congrArg (· + x2 (ix1 s)) ?_
  unfold Cert.Spec.linAt
  exact Finset.sum_congr rfl fun k _ => by rw [h0 (ix2 p k) (ix2 r k) hr rfl]

/-- The same for the second store: entry j is entry i of x · W. -/
theorem tile_plain (A : Cert.Spec.Mat 100000 128) (W : Cert.Spec.Mat 128 128)
    (x0 : Vec Ideal S2000x128 .f32) (x5 : Vec Ideal S128x128 .f32) (n : Nat)
    (h0 : ∀ (y : S2000x128.Idx) (k : S100000x128.Idx), (k 0).val = n * 2000 + (y 0).val → (k 1).val = (y 1).val → x0 y = A k)
    (h1 : x5 = W) (j : S2000x128.Idx) (i : S100000x128.Idx)
    (hi0 : (i 0).val = n * 2000 + (j 0).val) (hi1 : (i 1).val = (j 1).val) :
    k0_pay3 x0 x5 j = Cert.Spec.proj (M := 100000) A W i := by
  obtain ⟨p, q, rfl⟩ : ∃ (p : Fin 2000) (q : Fin 128), j = ix2 p q := ⟨j 0, j 1, eq_ix2 j⟩
  obtain ⟨r, s, rfl⟩ : ∃ (r : Fin 100000) (s : Fin 128), i = ix2 r s := ⟨i 0, i 1, eq_ix2 i⟩
  have hr : r.val = n * 2000 + p.val := hi0
  obtain rfl : s = q := Fin.ext hi1
  subst h1
  rw [Cert.Hand.ProjTile.pay3_apply, Cert.Spec.proj_apply]
  unfold Cert.Spec.linAt
  exact Finset.sum_congr rfl fun k _ => by rw [h0 (ix2 p k) (ix2 r k) hr rfl]

/-! ## The blocks of the windows at a point -/

theorem zero2 : (![0, 0] : Fin 2 → Nat) = fun _ => 0 := funext fun a => by fin_cases a <;> rfl
theorem zero1 : (![0] : Fin 1 → Nat) = fun _ => 0 := funext fun a => by fin_cases a <;> rfl

/-- The block indices at point t, decided over the 50 points: the table and the two results move down one block of rows
    per point and stay on the one block of columns; the weights and the bias stay on their one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row y of the table's block at point t is row 2000 t + y of the table. -/
theorem table_block (c : Dev nD) (t : Fin cfg0.N) (y : S2000x128.Idx) (k : S100000x128.Idx)
    (hk0 : (k 0).val = t.val * 2000 + (y 0).val) (hk1 : (k 1).val = (y 1).val) :
    (iblk0 (F := Ideal) V c 0 t : Vec Ideal S2000x128 .f32) y = (V c main_arg0 : S100000x128.Idx → EReal) k := by
  obtain ⟨e00, e01, -⟩ := block_index t
  unfold iblk0
  rw [View.read_apply]
  show V c main_arg0 _ = V c main_arg0 _
  congr 1
  funext a
  apply Fin.ext
  match a with
  | ⟨0, _⟩ => show win0_0.index t (0 : Fin 2) * 2000 + 1 * (y 0).val = (k 0).val; rw [e00, hk0]; omega
  | ⟨1, _⟩ => show win0_0.index t (1 : Fin 2) * 128 + 1 * (y 1).val = (k 1).val; rw [e01, hk1]; omega

/-- The first weight matrix's block at any point is the whole matrix. -/
theorem weight1_block (c : Dev nD) (t : Fin cfg0.N) :
    (iblk0 (F := Ideal) V c 1 t : Vec Ideal S128x128 .f32) = (V c main_v0 : S128x128.Idx → EReal) := by
  obtain ⟨-, -, e10, e11, -⟩ := block_index t
  funext y
  unfold iblk0
  rw [View.read_apply]
  show V c main_v0 _ = V c main_v0 _
  congr 1
  funext a
  apply Fin.ext
  match a with
  | ⟨0, _⟩ => show win0_1.index t (0 : Fin 2) * 128 + 1 * (y 0).val = (y 0).val; rw [e10]; omega
  | ⟨1, _⟩ => show win0_1.index t (1 : Fin 2) * 128 + 1 * (y 1).val = (y 1).val; rw [e11]; omega

/-- The bias row's block at any point is the whole row. -/
theorem bias_block (c : Dev nD) (t : Fin cfg0.N) :
    (iblk0 (F := Ideal) V c 2 t : Vec Ideal S128 .f32) = (V c main_arg3 : S128.Idx → EReal) := by
  obtain ⟨-, -, -, -, e20, -⟩ := block_index t
  funext y
  unfold iblk0
  rw [View.read_apply]
  show V c main_arg3 _ = V c main_arg3 _
  congr 1
  funext a
  apply Fin.ext
  match a with
  | ⟨0, _⟩ => show win0_2.index t (0 : Fin 1) * 128 + 1 * (y 0).val = (y 0).val; rw [e20]; omega

/-- The second weight matrix's block at any point is the whole matrix. -/
theorem weight2_block (c : Dev nD) (t : Fin cfg0.N) :
    (iblk0 (F := Ideal) V c 3 t : Vec Ideal S128x128 .f32) = (V c main_v1 : S128x128.Idx → EReal) := by
  obtain ⟨-, -, -, -, -, e30, e31, -⟩ := block_index t
  funext y
  unfold iblk0
  rw [View.read_apply]
  show V c main_v1 _ = V c main_v1 _
  congr 1
  funext a
  apply Fin.ext
  match a with
  | ⟨0, _⟩ => show win0_3.index t (0 : Fin 2) * 128 + 1 * (y 0).val = (y 0).val; rw [e30]; omega
  | ⟨1, _⟩ => show win0_3.index t (1 : Fin 2) * 128 + 1 * (y 1).val = (y 1).val; rw [e31]; omega

/-! ## What a point writes back is its rows of the whole-array function -/

/-- Point t writes back, to the first result, rows 2000 t … of x · w1 + b. -/
theorem written4 (c : Dev nD) (t : Fin cfg0.N) :
    (dat0 (F := Ideal) V c).flushed 4 t
      = ((cfg0.win 4).blk t).view.read (Elt Ideal) (Cert.Spec.projBias (M := 100000) (V c main_arg0) (V c main_v0) (V c main_arg3)) := by
  show (cfg0.win 4).cut (grid0.coords t) ((dat0 (F := Ideal) V c).after 4 t) = _
  rw [after0_4]
  unfold out0_4
  rw [View.canon_unit_zero zero2]
  simp only [View.ld_unit_zero (S := S2000x128) zero2, View.ld_unit_zero (S := S128x128) zero2, View.ld_unit_zero (S := S128) zero1]
  obtain ⟨-, -, -, -, -, -, -, e40, e41, -⟩ := block_index t
  funext j
  show k0_pay2 (iblk0 V c 0 t) (iblk0 V c 1 t) (iblk0 V c 2 t) j
    = Cert.Spec.projBias (M := 100000) (V c main_arg0) (V c main_v0) (V c main_arg3) (((cfg0.win 4).blk t).view.emb j)
  refine tile_bias (V c main_arg0) (V c main_v0) (V c main_arg3) _ _ _ t.val (table_block V c t) (weight1_block V c t)
    (bias_block V c t) j _ ?_ ?_
  · show win0_4.index t (0 : Fin 2) * 2000 + 1 * (j 0).val = t.val * 2000 + (j 0).val; rw [e40]; omega
  · show win0_4.index t (1 : Fin 2) * 128 + 1 * (j 1).val = (j 1).val; rw [e41]; omega

/-- Point t writes back, to the second result, rows 2000 t … of x · w2. -/
theorem written5 (c : Dev nD) (t : Fin cfg0.N) :
    (dat0 (F := Ideal) V c).flushed 5 t
      = ((cfg0.win 5).blk t).view.read (Elt Ideal) (Cert.Spec.proj (M := 100000) (V c main_arg0) (V c main_v1)) := by
  show (cfg0.win 5).cut (grid0.coords t) ((dat0 (F := Ideal) V c).after 5 t) = _
  rw [after0_5]
  unfold out0_5
  rw [View.canon_unit_zero zero2]
  simp only [View.ld_unit_zero (S := S2000x128) zero2, View.ld_unit_zero (S := S128x128) zero2]
  obtain ⟨-, -, -, -, -, -, -, -, -, e50, e51⟩ := block_index t
  funext j
  show k0_pay3 (iblk0 V c 0 t) (iblk0 V c 3 t) j
    = Cert.Spec.proj (M := 100000) (V c main_arg0) (V c main_v1) (((cfg0.win 5).blk t).view.emb j)
  refine tile_plain (V c main_arg0) (V c main_v1) _ _ t.val (table_block V c t) (weight2_block V c t) j _ ?_ ?_
  · show win0_5.index t (0 : Fin 2) * 2000 + 1 * (j 0).val = t.val * 2000 + (j 0).val; rw [e50]; omega
  · show win0_5.index t (1 : Fin 2) * 128 + 1 * (j 1).val = (j 1).val; rw [e51]; omega

/-! ## The blocks cover the arrays -/

/-- An index of the first result is in point t's block iff each coordinate is in the block's range on its axis. -/
theorem in_block4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v2_0).slice (win0_4.rect t)).set ↔ _
  rw [View.set_slice_whole, Rect.mem_set_unit]
  exact Iff.rfl

/-- The same for the second result. -/
theorem in_block5 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v2_1).slice (win0_5.rect t)).set ↔ _
  rw [View.set_slice_whole, Rect.mem_set_unit]
  exact Iff.rfl

/-- Row r of the first result lies in the block of point r / 2000, which writes back. -/
theorem cover4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 50 := N_0
  let t : Fin cfg0.N := ⟨(i 0).val / 2000, by show (i 0).val / 2000 < grid0.N; rw [hN]; omega⟩
  have ht : t.val = (i 0).val / 2000 := rfl
  obtain ⟨-, -, -, -, -, -, -, e40, e41, -⟩ := block_index t
  refine ⟨t, flush0_4 t, ?_⟩
  rw [in_block4]
  intro a
  match a with
  | ⟨0, _⟩ => show win0_4.index t (0 : Fin 2) * 2000 ≤ (i 0).val ∧ (i 0).val < win0_4.index t (0 : Fin 2) * 2000 + 2000; rw [e40, ht]; omega
  | ⟨1, _⟩ => show win0_4.index t (1 : Fin 2) * 128 ≤ (i 1).val ∧ (i 1).val < win0_4.index t (1 : Fin 2) * 128 + 128; rw [e41]; omega

/-- Row r of the second result lies in the block of point r / 2000, which writes back. -/
theorem cover5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 50 := N_0
  let t : Fin cfg0.N := ⟨(i 0).val / 2000, by show (i 0).val / 2000 < grid0.N; rw [hN]; omega⟩
  have ht : t.val = (i 0).val / 2000 := rfl
  obtain ⟨-, -, -, -, -, -, -, -, -, e50, e51⟩ := block_index t
  refine ⟨t, flush0_5 t, ?_⟩
  rw [in_block5]
  intro a
  match a with
  | ⟨0, _⟩ => show win0_5.index t (0 : Fin 2) * 2000 ≤ (i 0).val ∧ (i 0).val < win0_5.index t (0 : Fin 2) * 2000 + 2000; rw [e50, ht]; omega
  | ⟨1, _⟩ => show win0_5.index t (1 : Fin 2) * 128 ≤ (i 1).val ∧ (i 1).val < win0_5.index t (1 : Fin 2) * 128 + 128; rw [e51]; omega

/-! ## The arrays after the region -/

theorem arr4 (c : Dev nD) : (dat0 (F := Ideal) V c).arrAt 4 cfg0.N
    = Cert.Spec.projBias (M := 100000) (V c main_arg0) (V c main_v0) (V c main_arg3) :=
  (dat0 (F := Ideal) V c).arrAt_eq_of_cover 4 _ (fun t _ => written4 V c t) cover4

theorem arr5 (c : Dev nD) : (dat0 (F := Ideal) V c).arrAt 5 cfg0.N
    = Cert.Spec.proj (M := 100000) (V c main_arg0) (V c main_v1) :=
  (dat0 (F := Ideal) V c).arrAt_eq_of_cover 5 _ (fun t _ => written5 V c t) cover5

end Cert.Hand.Region0

end
-- ==== Proof.Region1.lean ====
/-
  THE PROJECTION OF THE SECOND NODE TABLE, from tiles of rows to whole arrays.

  The node table x has 50000 rows of 128 features. The kernel runs over 25 points; point t takes rows 2000 t … 2000 t + 1999
  of x (its block along the rows; the 128 columns are one block), the two weight matrices and the bias row WHOLE at every
  point (their block index is 0 on every axis), and writes back rows 2000 t … 2000 t + 1999 of the two results
      p = x · w1 + b      and      q = x · w2.
  Entry (r, s) of either result depends on row r of x only, and row r = 2000 t + y of x is row y of point t's block: so what
  point t writes back is exactly rows 2000 t … of the whole-array function (the tile lemma at each entry). Every row r lies
  in the block of point r / 2000, so the blocks cover the arrays, and each array ends holding the whole-array function.
  A block's coordinate in its array is always  block index × block size + 1 × the coordinate inside the block.
-/
import proofs.«130975_j12936441495793_1_alg».proof.Proof.Gen.KernelIdeal.Frame
import proofs.«130975_j12936441495793_1_alg».proof.Proof.Spec
import proofs.«130975_j12936441495793_1_alg».proof.Proof.ProjTile
import Idealize.ShloMosaic.Lib.Pipeline.Value

set_option maxRecDepth 16384

noncomputable section

open Idealize.ShloMosaic Idealize.ShloMosaic.TcCoe Idealize.SL.Sem
open Idealize.ShloMosaic.Pipeline (Dat)
open scoped BigOperators

namespace Cert.Hand.Region1

open Cert.KernelIdeal Cert.KernelIdeal.Gen Idealize.ShloMosaic.ValueIdx

/-! ## One entry of a tile against the whole arrays, over variables of the literal types -/

/-- If row y of the block x0 is row 2000 n + y of the table A, and the block's other operands are the whole weight matrix W
    and bias row B, then entry j of the first store is entry i of x · W + B whenever i is j moved down by 2000 n rows. -/
theorem tile_bias (A : Cert.Spec.Mat 50000 128) (W : Cert.Spec.Mat 128 128) (B : Cert.Spec.Row 128)
    (x0 : Vec Ideal S2000x128 .f32) (x1 : Vec Ideal S128x128 .f32) (x2 : Vec Ideal S128 .f32) (n : Nat)
    (h0 : ∀ (y : S2000x128.Idx) (k : S50000x128.Idx), (k 0).val = n * 2000 + (y 0).val → (k 1).val = (y 1).val → x0 y = A k)
    (h1 : x1 = W) (h2 : x2 = B) (j : S2000x128.Idx) (i : S50000x128.Idx)
    (hi0 : (i 0).val = n * 2000 + (j 0).val) (hi1 : (i 1).val = (j 1).val) :
    k1_pay2 x0 x1 x2 j = Cert.Spec.projBias (M := 50000) A W B i := by
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = n * 2000 + p.val := hi0
  obtain rfl : s = q := Fin.ext hi1
  subst h1 h2
  rw [Cert.Hand.ProjTile.k1_pay2_eq, Cert.Hand.ProjTile.pay2_apply, Cert.Spec.projBias_apply]
  refine congrArg (· + x2 (ix1 s)) ?_
  unfold Cert.Spec.linAt
  exact Finset.sum_congr rfl fun k _ => by rw [h0 (ix2 p k) (ix2 r k) hr rfl]

/-- The same for the second store: entry j is entry i of x · W. -/
theorem tile_plain (A : Cert.Spec.Mat 50000 128) (W : Cert.Spec.Mat 128 128)
    (x0 : Vec Ideal S2000x128 .f32) (x5 : Vec Ideal S128x128 .f32) (n : Nat)
    (h0 : ∀ (y : S2000x128.Idx) (k : S50000x128.Idx), (k 0).val = n * 2000 + (y 0).val → (k 1).val = (y 1).val → x0 y = A k)
    (h1 : x5 = W) (j : S2000x128.Idx) (i : S50000x128.Idx)
    (hi0 : (i 0).val = n * 2000 + (j 0).val) (hi1 : (i 1).val = (j 1).val) :
    k1_pay3 x0 x5 j = Cert.Spec.proj (M := 50000) A W i := by
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = n * 2000 + p.val := hi0
  obtain rfl : s = q := Fin.ext hi1
  subst h1
  rw [Cert.Hand.ProjTile.k1_pay3_eq, Cert.Hand.ProjTile.pay3_apply, Cert.Spec.proj_apply]
  unfold Cert.Spec.linAt
  exact Finset.sum_congr rfl fun k _ => by rw [h0 (ix2 p k) (ix2 r k) hr rfl]

/-! ## The blocks of the windows at a point -/

theorem zero2 : (![0, 0] : Fin 2 → Nat) = fun _ => 0 := funext fun a => by fin_cases a <;> rfl
theorem zero1 : (![0] : Fin 1 → Nat) = fun _ => 0 := funext fun a => by fin_cases a <;> rfl

/-- The block indices at point t, decided over the 25 points: the table and the two results move down one block of rows
    per point and stay on the one block of columns; the weights and the bias stay on their one block. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Row y of the table's block at point t is row 2000 t + y of the table. -/
theorem table_block (c : Dev nD) (t : Fin cfg1.N) (y : S2000x128.Idx) (k : S50000x128.Idx)
    (hk0 : (k 0).val = t.val * 2000 + (y 0).val) (hk1 : (k 1).val = (y 1).val) :
    (iblk1 (F := Ideal) V c 0 t : Vec Ideal S2000x128 .f32) y = (V c main_arg1 : S50000x128.Idx → EReal) k := by
  obtain ⟨e00, e01, -⟩ := block_index t
  unfold iblk1
  rw [View.read_apply]
  show V c main_arg1 _ = V c main_arg1 _
  congr 1
  funext a
  apply Fin.ext
  match a with
  | ⟨0, _⟩ => show win1_0.index t (0 : Fin 2) * 2000 + 1 * (y 0).val = (k 0).val; rw [e00, hk0]; omega
  | ⟨1, _⟩ => show win1_0.index t (1 : Fin 2) * 128 + 1 * (y 1).val = (k 1).val; rw [e01, hk1]; omega

/-- The first weight matrix's block at any point is the whole matrix. -/
theorem weight1_block (c : Dev nD) (t : Fin cfg1.N) :
    (iblk1 (F := Ideal) V c 1 t : Vec Ideal S128x128 .f32) = (V c main_v0 : S128x128.Idx → EReal) := by
  obtain ⟨-, -, e10, e11, -⟩ := block_index t
  funext y
  unfold iblk1
  rw [View.read_apply]
  show V c main_v0 _ = V c main_v0 _
  congr 1
  funext a
  apply Fin.ext
  match a with
  | ⟨0, _⟩ => show win1_1.index t (0 : Fin 2) * 128 + 1 * (y 0).val = (y 0).val; rw [e10]; omega
  | ⟨1, _⟩ => show win1_1.index t (1 : Fin 2) * 128 + 1 * (y 1).val = (y 1).val; rw [e11]; omega

/-- The bias row's block at any point is the whole row. -/
theorem bias_block (c : Dev nD) (t : Fin cfg1.N) :
    (iblk1 (F := Ideal) V c 2 t : Vec Ideal S128 .f32) = (V c main_arg3 : S128.Idx → EReal) := by
  obtain ⟨-, -, -, -, e20, -⟩ := block_index t
  funext y
  unfold iblk1
  rw [View.read_apply]
  show V c main_arg3 _ = V c main_arg3 _
  congr 1
  funext a
  apply Fin.ext
  match a with
  | ⟨0, _⟩ => show win1_2.index t (0 : Fin 1) * 128 + 1 * (y 0).val = (y 0).val; rw [e20]; omega

/-- The second weight matrix's block at any point is the whole matrix. -/
theorem weight2_block (c : Dev nD) (t : Fin cfg1.N) :
    (iblk1 (F := Ideal) V c 3 t : Vec Ideal S128x128 .f32) = (V c main_v1 : S128x128.Idx → EReal) := by
  obtain ⟨-, -, -, -, -, e30, e31, -⟩ := block_index t
  funext y
  unfold iblk1
  rw [View.read_apply]
  show V c main_v1 _ = V c main_v1 _
  congr 1
  funext a
  apply Fin.ext
  match a with
  | ⟨0, _⟩ => show win1_3.index t (0 : Fin 2) * 128 + 1 * (y 0).val = (y 0).val; rw [e30]; omega
  | ⟨1, _⟩ => show win1_3.index t (1 : Fin 2) * 128 + 1 * (y 1).val = (y 1).val; rw [e31]; omega

/-! ## What a point writes back is its rows of the whole-array function -/

/-- Point t writes back, to the first result, rows 2000 t … of x · w1 + b. -/
theorem written4 (c : Dev nD) (t : Fin cfg1.N) :
    (dat1 (F := Ideal) V c).flushed 4 t
      = ((cfg1.win 4).blk t).view.read (Elt Ideal) (Cert.Spec.projBias (M := 50000) (V c main_arg1) (V c main_v0) (V c main_arg3)) := by
  show (cfg1.win 4).cut (grid1.coords t) ((dat1 (F := Ideal) V c).after 4 t) = _
  rw [after1_4]
  unfold out1_4
  rw [View.canon_unit_zero zero2]
  simp only [View.ld_unit_zero (S := S2000x128) zero2, View.ld_unit_zero (S := S128x128) zero2, View.ld_unit_zero (S := S128) zero1]
  obtain ⟨-, -, -, -, -, -, -, e40, e41, -⟩ := block_index t
  funext j
  show k1_pay2 (iblk1 V c 0 t) (iblk1 V c 1 t) (iblk1 V c 2 t) j
    = Cert.Spec.projBias (M := 50000) (V c main_arg1) (V c main_v0) (V c main_arg3) (((cfg1.win 4).blk t).view.emb j)
  refine tile_bias (V c main_arg1) (V c main_v0) (V c main_arg3) _ _ _ t.val (table_block V c t) (weight1_block V c t)
    (bias_block V c t) j _ ?_ ?_
  · show win1_4.index t (0 : Fin 2) * 2000 + 1 * (j 0).val = t.val * 2000 + (j 0).val; rw [e40]; omega
  · show win1_4.index t (1 : Fin 2) * 128 + 1 * (j 1).val = (j 1).val; rw [e41]; omega

/-- Point t writes back, to the second result, rows 2000 t … of x · w2. -/
theorem written5 (c : Dev nD) (t : Fin cfg1.N) :
    (dat1 (F := Ideal) V c).flushed 5 t
      = ((cfg1.win 5).blk t).view.read (Elt Ideal) (Cert.Spec.proj (M := 50000) (V c main_arg1) (V c main_v1)) := by
  show (cfg1.win 5).cut (grid1.coords t) ((dat1 (F := Ideal) V c).after 5 t) = _
  rw [after1_5]
  unfold out1_5
  rw [View.canon_unit_zero zero2]
  simp only [View.ld_unit_zero (S := S2000x128) zero2, View.ld_unit_zero (S := S128x128) zero2]
  obtain ⟨-, -, -, -, -, -, -, -, -, e50, e51⟩ := block_index t
  funext j
  show k1_pay3 (iblk1 V c 0 t) (iblk1 V c 3 t) j
    = Cert.Spec.proj (M := 50000) (V c main_arg1) (V c main_v1) (((cfg1.win 5).blk t).view.emb j)
  refine tile_plain (V c main_arg1) (V c main_v1) _ _ t.val (table_block V c t) (weight2_block V c t) j _ ?_ ?_
  · show win1_5.index t (0 : Fin 2) * 2000 + 1 * (j 0).val = t.val * 2000 + (j 0).val; rw [e50]; omega
  · show win1_5.index t (1 : Fin 2) * 128 + 1 * (j 1).val = (j 1).val; rw [e51]; omega

/-! ## The blocks cover the arrays -/

/-- An index of the first result is in point t's block iff each coordinate is in the block's range on its axis. -/
theorem in_block4 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v3_0).slice (win1_4.rect t)).set ↔ _
  rw [View.set_slice_whole, Rect.mem_set_unit]
  exact Iff.rfl

/-- The same for the second result. -/
theorem in_block5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v3_1).slice (win1_5.rect t)).set ↔ _
  rw [View.set_slice_whole, Rect.mem_set_unit]
  exact Iff.rfl

/-- Row r of the first result lies in the block of point r / 2000, which writes back. -/
theorem cover4 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 25 := N_1
  let t : Fin cfg1.N := ⟨(i 0).val / 2000, by show (i 0).val / 2000 < grid1.N; rw [hN]; omega⟩
  have ht : t.val = (i 0).val / 2000 := rfl
  obtain ⟨-, -, -, -, -, -, -, e40, e41, -⟩ := block_index t
  refine ⟨t, flush1_4 t, ?_⟩
  rw [in_block4]
  intro a
  match a with
  | ⟨0, _⟩ => show win1_4.index t (0 : Fin 2) * 2000 ≤ (i 0).val ∧ (i 0).val < win1_4.index t (0 : Fin 2) * 2000 + 2000; rw [e40, ht]; omega
  | ⟨1, _⟩ => show win1_4.index t (1 : Fin 2) * 128 ≤ (i 1).val ∧ (i 1).val < win1_4.index t (1 : Fin 2) * 128 + 128; rw [e41]; omega

/-- Row r of the second result lies in the block of point r / 2000, which writes back. -/
theorem cover5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 25 := N_1
  let t : Fin cfg1.N := ⟨(i 0).val / 2000, by show (i 0).val / 2000 < grid1.N; rw [hN]; omega⟩
  have ht : t.val = (i 0).val / 2000 := rfl
  obtain ⟨-, -, -, -, -, -, -, -, -, e50, e51⟩ := block_index t
  refine ⟨t, flush1_5 t, ?_⟩
  rw [in_block5]
  intro a
  match a with
  | ⟨0, _⟩ => show win1_5.index t (0 : Fin 2) * 2000 ≤ (i 0).val ∧ (i 0).val < win1_5.index t (0 : Fin 2) * 2000 + 2000; rw [e50, ht]; omega
  | ⟨1, _⟩ => show win1_5.index t (1 : Fin 2) * 128 ≤ (i 1).val ∧ (i 1).val < win1_5.index t (1 : Fin 2) * 128 + 128; rw [e51]; omega

/-! ## The arrays after the region -/

theorem arr4 (c : Dev nD) : (dat1 (F := Ideal) V c).arrAt 4 cfg1.N
    = Cert.Spec.projBias (M := 50000) (V c main_arg1) (V c main_v0) (V c main_arg3) :=
  (dat1 (F := Ideal) V c).arrAt_eq_of_cover 4 _ (fun t _ => written4 V c t) cover4

theorem arr5 (c : Dev nD) : (dat1 (F := Ideal) V c).arrAt 5 cfg1.N
    = Cert.Spec.proj (M := 50000) (V c main_arg1) (V c main_v1) :=
  (dat1 (F := Ideal) V c).arrAt_eq_of_cover 5 _ (fun t _ => written5 V c t) cover5

end Cert.Hand.Region1

end
-- ==== Proof.LibRowColumn.lean ====
/-
  Row sums and the column forms a row sum with kept dimensions passes through, read at an entry.

  A sum along the rows of an [a, b] matrix is a vector of length a; "keeping the dimension" casts it to the column
  [a, 1]; a column is re-laid as the row [1, a] by another cast, and a column is broadcast along the second axis to
  [a, b]. Each lemma reads one of these operations at an index written by its coordinates: the cast and the broadcast
  read the operand at one index, and the row sum at row p is the sum over the columns k of entry (p, k).
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowColumn

open Idealize.ShloMosaic Idealize.ShloMosaic.ValueIdx

variable {α : Type}

/-- A vector [a] cast to the column [a, 1] reads, at (i, u), the operand at i: both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to the row [1, a] reads, at (u, i), the operand at (i, 0): both have row-major position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] matrix along its rows, over the extended reals, read at row p: the sum over the columns k of
    entry (p, k). The accumulator is the sum's neutral word, so nothing is added to it. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.RowColumn

end
-- ==== Proof.FinTile.lean ====
/-
  The readout of ONE TILE of rows.

  The readout kernel's body, on a tile of 2000 rows of 128 features of the projection p and the aggregate a, computes
  h = p + a, the leaky rectifier r = (h if h > 0, else 0.2 * h), the sum of squares of every row of r, its square root
  floored at 1e-12, and divides r by it. Read at the entry (row, column) of the tile this is the readout of the
  specification taken on the tile itself: the row's sum of squares runs over the 128 columns of that one row, the cast of
  the vector of row sums to a column and the broadcast of the column along the rows each read one entry.
  Both readout kernels print the same body, so one lemma serves both.
-/
import proofs.«130975_j12936441495793_1_alg».proof.Proof.Gen.KernelIdeal.Skeleton
import proofs.«130975_j12936441495793_1_alg».proof.Proof.Spec
import proofs.«130975_j12936441495793_1_alg».proof.Proof.LibRowColumn

set_option maxRecDepth 16384

noncomputable section

namespace Cert.Hand.FinTile

open Idealize.ShloMosaic Idealize.ShloMosaic.ValueIdx
open Cert.KernelIdeal Cert.KernelIdeal.Gen

/-- The square root of a vector reads, at an index, the square root of the entry. -/
theorem sqrt_apply {s : Shape} {φ : FTy} (x : FVec Ideal s φ) (i : s.Idx) : sqrt x i = Ideal.sqrt (x i) := rfl

/-- The rectified tile: the leaky rectifier of p + a, entry by entry, as the body builds it. -/
def rect (x0 x1 : Vec Ideal S2000x128 .f32) : FVec Ideal S2000x128 .f32 :=
  select (cmpf .ogt (addf x0 x1) (broadcast S2000x128 (Scalar.ofBits (F := Ideal) .f32 0x00000000#32))) (addf x0 x1)
    (mulf (broadcast S2000x128 (Scalar.ofBits (F := Ideal) .f32 0x3E4CCCCD#32)) (addf x0 x1))

/-- An entry of the rectified tile is the specification's activated entry of the tile. -/
theorem rect_apply (x0 x1 : Vec Ideal S2000x128 .f32) (p : Fin 2000) (q : Fin 128) :
    rect x0 x1 (ix2 p q) = Cert.Spec.act x0 x1 p q := rfl

/-- The body's payload with its two identity casts removed: the rectified tile over its floored row lengths. -/
theorem k2_pay1_eq (x0 x1 : Vec Ideal S2000x128 .f32) :
    k2_pay1 (F := Ideal) x0 x1
      = divf (rect x0 x1)
          (broadcastTo S2000x128
            (maximumf
              (sqrt (shapeCast S2000x1
                (multiReduction (F := Ideal) .add [1] S2000 (mulf (rect x0 x1) (rect x0 x1)) 0x00000000#32 reduces_S2000x128_S2000 (.inl rfl) rfl)
                shapeCasts_S2000_S2000x1))
              (broadcast S2000x1 (Scalar.ofBits (F := Ideal) .f32 0x2B8CBCCC#32)))
            broadcasts_S2000x1_S2000x128) := by
  unfold k2_pay1 rect
  rw [shapeCast_self, shapeCast_self]

/-- THE TILE LEMMA: the body's payload at (row p, column q) of the tile is the readout of the tile at (p, q). -/
theorem k2_pay1_apply (x0 x1 : Vec Ideal S2000x128 .f32) (p : Fin 2000) (q : Fin 128) :
    k2_pay1 (F := Ideal) x0 x1 (ix2 p q) = Cert.Spec.readoutAt x0 x1 p q := by
  rw [k2_pay1_eq, divf_apply, Cert.RowColumn.broadcastTo_a1_ab_apply, maximumf_apply, sqrt_apply,
    Cert.RowColumn.shapeCast_a_a1_apply, broadcast_apply, rect_apply]
  unfold Cert.Spec.readoutAt Cert.Spec.rowSq
  refine congrArg (fun z => Ideal.div (Cert.Spec.act x0 x1 p q) (max (Ideal.sqrt z) _)) ?_
  refine (Cert.RowColumn.rowSum_apply _ _ _ _ _ p).trans ?_
  exact Finset.sum_congr rfl fun k _ => by rw [mulf_apply, rect_apply]

/-- The second readout kernel prints the same body. -/
theorem k3_pay1_eq_k2 (x0 x1 : Vec Ideal S2000x128 .f32) : k3_pay1 (F := Ideal) x0 x1 = k2_pay1 (F := Ideal) x0 x1 := rfl

theorem k3_pay1_apply (x0 x1 : Vec Ideal S2000x128 .f32) (p : Fin 2000) (q : Fin 128) :
    k3_pay1 (F := Ideal) x0 x1 (ix2 p q) = Cert.Spec.readoutAt x0 x1 p q :=
  (congrFun (k3_pay1_eq_k2 x0 x1) _).trans (k2_pay1_apply x0 x1 p q)

/-- An entry of the readout reads ONE row of each table: two pairs of tables that agree along a row of each have the
    same readout on that row. -/
theorem readoutAt_congr {M M' : ℕ} (p a : Cert.Spec.Mat M 128) (p' a' : Cert.Spec.Mat M' 128) (r : Fin M) (r' : Fin M')
    (hp : ∀ k : Fin 128, p (ix2 r k) = p' (ix2 r' k)) (ha : ∀ k : Fin 128, a (ix2 r k) = a' (ix2 r' k)) (c : Fin 128) :
    Cert.Spec.readoutAt p a r c = Cert.Spec.readoutAt p' a' r' c := by
  unfold Cert.Spec.readoutAt Cert.Spec.rowSq Cert.Spec.act
  simp only [hp, ha]

/-- A TILE THAT IS A BLOCK OF ROWS OF TWO TABLES. The three windows place entry y of the tile at e0 y, e1 y, e y of
    their tables, the same place for all three: row n * 2000 + (row of y), column (column of y). Then the body's
    payload of the two input tiles, at y, is the readout of the whole tables at that place: row p of the tile is row
    n * 2000 + p of the tables for every column of the row sum. -/
theorem k2_pay1_block {M : ℕ} (p a : Cert.Spec.Mat M 128) (e0 e1 e : S2000x128.Idx → (⟨2, ![M, 128]⟩ : Shape).Idx)
    (h0 : e0 = e) (h1 : e1 = e) (n : ℕ)
    (he0 : ∀ y, ((e y) 0).val = n * 2000 + (y 0).val) (he1 : ∀ y, ((e y) 1).val = (y 1).val) (y : S2000x128.Idx) :
    k2_pay1 (F := Ideal) (fun y => p (e0 y)) (fun y => a (e1 y)) y = Cert.Spec.readout p a (e y) := by
  rw [h0, h1]
  obtain ⟨r, q, rfl⟩ : ∃ (r : Fin 2000) (q : Fin 128), y = ix2 r q := ⟨y 0, y 1, eq_ix2 y⟩
  rw [k2_pay1_apply]
  have hrow : ∀ k : Fin 128, e (ix2 r k) = ix2 ((e (ix2 r q)) 0 : Fin M) k := fun k => by
    funext d; apply Fin.ext
    match d with
    | ⟨0, _⟩ => exact (he0 (ix2 r k)).trans (he0 (ix2 r q)).symm
    | ⟨1, _⟩ => exact he1 (ix2 r k)
  have hcol : ((e (ix2 r q)) 1 : Fin 128) = q := Fin.ext (he1 (ix2 r q))
  show _ = Cert.Spec.readoutAt p a ((e (ix2 r q)) 0 : Fin M) ((e (ix2 r q)) 1 : Fin 128)
  rw [hcol]
  exact readoutAt_congr _ _ p a r _ (fun k => congrArg p (hrow k)) (fun k => congrArg a (hrow k)) q

/-- The same for the second readout kernel, which prints the same body. -/
theorem k3_pay1_block {M : ℕ} (p a : Cert.Spec.Mat M 128) (e0 e1 e : S2000x128.Idx → (⟨2, ![M, 128]⟩ : Shape).Idx)
    (h0 : e0 = e) (h1 : e1 = e) (n : ℕ)
    (he0 : ∀ y, ((e y) 0).val = n * 2000 + (y 0).val) (he1 : ∀ y, ((e y) 1).val = (y 1).val) (y : S2000x128.Idx) :
    k3_pay1 (F := Ideal) (fun y => p (e0 y)) (fun y => a (e1 y)) y = Cert.Spec.readout p a (e y) :=
  (congrFun (k3_pay1_eq_k2 _ _) _).trans (k2_pay1_block p a e0 e1 e h0 h1 n he0 he1 y)

end Cert.Hand.FinTile

end
-- ==== Proof.Region2.lean ====
/-
  THE FIRST READOUT REGION, as one function of the tables it finds.

  The region runs the readout body on a grid of 50 points; at point t each of its three windows — the projection p, the
  aggregate a, the output — holds block t of its table of 100000 rows: rows 2000 * t … 2000 * t + 1999, all 128 columns.
  An entry (r, c) of the readout  act p a (r, c) / max (sqrt (sum over k of act p a (r, k) ^ 2)) 1e-12  reads row r of p and
  of a only, so the body on block t, which holds whole rows, computes exactly block t of the readout of the whole tables:
  the tile's row j is row 2000 * t + j of the tables, for every column k of the row's sum of squares. Every point writes
  its block back, and row r lies in the block of point r / 2000, so the blocks fill the table: after the region the
  output table IS the readout of the two input tables as the region found them.
-/
import proofs.«130975_j12936441495793_1_alg».proof.Proof.Gen.KernelIdeal.Frame
import proofs.«130975_j12936441495793_1_alg».proof.Proof.Spec
import proofs.«130975_j12936441495793_1_alg».proof.Proof.FinTile
import Idealize.ShloMosaic.Lib.Pipeline.Value

set_option maxRecDepth 16384

noncomputable section

open Idealize.ShloMosaic Idealize.ShloMosaic.TcCoe Idealize.SL.Sem
open Idealize.ShloMosaic.Pipeline (Dat)

namespace Cert.Hand.Region2

open Cert.KernelIdeal Cert.KernelIdeal.Gen

variable (V : (c : Dev nD) → (b : Ref sig .tc) → Buf (Elt Ideal) ((c : Thread nD τ).loc b))

/-- The offset of a whole tile's one store: the origin. -/
theorem origin : (![0, 0] : Fin 2 → Nat) = fun _ => 0 := funext fun a => by fin_cases a <;> rfl

/-- The three windows move together: at point t each takes block (t, 0) of its table (decided over the 50 points). -/
theorem blocks_together : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the readout of the two tables as the region finds them: the tile's row p is
    row 2000 * t + p of the tables, and the readout of a row reads that row only. -/
theorem flushed_eq (c : Dev nD) (t : Fin cfg2.N) :
    (dat2 (F := Ideal) V c).flushed 2 t
      = ((cfg2.win 2).blk t).view.read (Elt Ideal) (Cert.Spec.readout (M := 100000) (V c main_v2_0) (V c main_v65)) := by
  show (cfg2.win 2).cut (grid2.coords t) ((dat2 V c).after 2 t) = _
  rw [after2_2]
  unfold out2_2
  rw [View.canon_unit_zero origin]
  simp only [View.ld_unit_zero (S := S2000x128) origin]
  obtain ⟨e0, e1, e2, e3, e4, e5⟩ := blocks_together t
  have h0 : ∀ j, ((cfg2.win 0).blk t).view.emb j = ((cfg2.win 2).blk t).view.emb j := by
    intro j; funext a; apply Fin.ext
    match a with
    | ⟨0, _⟩ => show win2_0.index t (0 : Fin 2) * 2000 + 1 * (j 0).val = win2_2.index t (0 : Fin 2) * 2000 + 1 * (j 0).val; rw [e0, e4]
    | ⟨1, _⟩ => show win2_0.index t (1 : Fin 2) * 128 + 1 * (j 1).val = win2_2.index t (1 : Fin 2) * 128 + 1 * (j 1).val; rw [e1, e5]
  have h1 : ∀ j, ((cfg2.win 1).blk t).view.emb j = ((cfg2.win 2).blk t).view.emb j := by
    intro j; funext a; apply Fin.ext
    match a with
    | ⟨0, _⟩ => show win2_1.index t (0 : Fin 2) * 2000 + 1 * (j 0).val = win2_2.index t (0 : Fin 2) * 2000 + 1 * (j 0).val; rw [e2, e4]
    | ⟨1, _⟩ => show win2_1.index t (1 : Fin 2) * 128 + 1 * (j 1).val = win2_2.index t (1 : Fin 2) * 128 + 1 * (j 1).val; rw [e3, e5]
  funext j
  refine Cert.Hand.FinTile.k2_pay1_block (V c main_v2_0) (V c main_v65) _ _ _ (funext h0) (funext h1) t.val (fun y => ?_) (fun y => ?_) j
  · show win2_2.index t (0 : Fin 2) * 2000 + 1 * (y 0).val = t.val * 2000 + (y 0).val
    rw [e4, Nat.one_mul]
  · show win2_2.index t (1 : Fin 2) * 128 + 1 * (y 1).val = (y 1).val
    rw [e5, Nat.zero_mul, Nat.zero_add, Nat.one_mul]

/-- An index of the output table is in point t's block iff each coordinate is in the block's range on its axis. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v66).slice (win2_2.rect t)).set ↔ _
  rw [View.set_slice_whole, Rect.mem_set_unit]
  exact Iff.rfl

/-- THE BLOCKS COVER THE TABLE: row r lies in the block of point r / 2000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 50 := N_2
  have hlt : (i 0).val / 2000 < grid2.N := by rw [hN]; omega
  obtain ⟨-, -, -, -, e4, e5⟩ := blocks_together ⟨(i 0).val / 2000, hlt⟩
  refine ⟨⟨(i 0).val / 2000, hlt⟩, flush2_2 _, ?_⟩
  rw [mem_blk]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, hlt⟩ (1 : Fin 2) * 128 ≤ (i 1).val ∧ (i 1).val < win2_2.index ⟨(i 0).val / 2000, hlt⟩ (1 : Fin 2) * 128 + 128
    rw [e5]
    omega

/-- THE OUTPUT TABLE after the region is the readout of the projection and the aggregate as the region finds them. -/
theorem arr2 (c : Dev nD) : (dat2 (F := Ideal) V c).arrAt 2 cfg2.N
    = Cert.Spec.readout (M := 100000) (V c main_v2_0) (V c main_v65) :=
  (dat2 (F := Ideal) V c).arrAt_eq_of_cover 2 _ (fun t _ => flushed_eq V c t) (cover)

end Cert.Hand.Region2

end
-- ==== Proof.Region3.lean ====
/-
  THE SECOND READOUT REGION, as one function of the tables it finds.

  The region runs the readout body on a grid of 25 points; at point t each of its three windows — the projection p, the
  aggregate a, the output — holds block t of its table of 50000 rows: rows 2000 * t … 2000 * t + 1999, all 128 columns.
  An entry (r, c) of the readout  act p a (r, c) / max (sqrt (sum over k of act p a (r, k) ^ 2)) 1e-12  reads row r of p and
  of a only, so the body on block t, which holds whole rows, computes exactly block t of the readout of the whole tables:
  the tile's row j is row 2000 * t + j of the tables, for every column k of the row's sum of squares. Every point writes
  its block back, and row r lies in the block of point r / 2000, so the blocks fill the table: after the region the
  output table IS the readout of the two input tables as the region found them.
-/
import proofs.«130975_j12936441495793_1_alg».proof.Proof.Gen.KernelIdeal.Frame
import proofs.«130975_j12936441495793_1_alg».proof.Proof.Spec
import proofs.«130975_j12936441495793_1_alg».proof.Proof.FinTile
import Idealize.ShloMosaic.Lib.Pipeline.Value

set_option maxRecDepth 16384

noncomputable section

open Idealize.ShloMosaic Idealize.ShloMosaic.TcCoe Idealize.SL.Sem
open Idealize.ShloMosaic.Pipeline (Dat)

namespace Cert.Hand.Region3

open Cert.KernelIdeal Cert.KernelIdeal.Gen

variable (V : (c : Dev nD) → (b : Ref sig .tc) → Buf (Elt Ideal) ((c : Thread nD τ).loc b))

/-- The offset of a whole tile's one store: the origin. -/
theorem origin : (![0, 0] : Fin 2 → Nat) = fun _ => 0 := funext fun a => by fin_cases a <;> rfl

/-- The three windows move together: at point t each takes block (t, 0) of its table (decided over the 25 points). -/
theorem blocks_together : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- WHAT POINT t WRITES BACK is block t of the readout of the two tables as the region finds them: the tile's row p is
    row 2000 * t + p of the tables, and the readout of a row reads that row only. -/
theorem flushed_eq (c : Dev nD) (t : Fin cfg3.N) :
    (dat3 (F := Ideal) V c).flushed 2 t
      = ((cfg3.win 2).blk t).view.read (Elt Ideal) (Cert.Spec.readout (M := 50000) (V c main_v3_0) (V c main_v34)) := by
  show (cfg3.win 2).cut (grid3.coords t) ((dat3 V c).after 2 t) = _
  rw [after3_2]
  unfold out3_2
  rw [View.canon_unit_zero origin]
  simp only [View.ld_unit_zero (S := S2000x128) origin]
  obtain ⟨e0, e1, e2, e3, e4, e5⟩ := blocks_together t
  have h0 : ∀ j, ((cfg3.win 0).blk t).view.emb j = ((cfg3.win 2).blk t).view.emb j := by
    intro j; funext a; apply Fin.ext
    match a with
    | ⟨0, _⟩ => show win3_0.index t (0 : Fin 2) * 2000 + 1 * (j 0).val = win3_2.index t (0 : Fin 2) * 2000 + 1 * (j 0).val; rw [e0, e4]
    | ⟨1, _⟩ => show win3_0.index t (1 : Fin 2) * 128 + 1 * (j 1).val = win3_2.index t (1 : Fin 2) * 128 + 1 * (j 1).val; rw [e1, e5]
  have h1 : ∀ j, ((cfg3.win 1).blk t).view.emb j = ((cfg3.win 2).blk t).view.emb j := by
    intro j; funext a; apply Fin.ext
    match a with
    | ⟨0, _⟩ => show win3_1.index t (0 : Fin 2) * 2000 + 1 * (j 0).val = win3_2.index t (0 : Fin 2) * 2000 + 1 * (j 0).val; rw [e2, e4]
    | ⟨1, _⟩ => show win3_1.index t (1 : Fin 2) * 128 + 1 * (j 1).val = win3_2.index t (1 : Fin 2) * 128 + 1 * (j 1).val; rw [e3, e5]
  funext j
  refine Cert.Hand.FinTile.k3_pay1_block (V c main_v3_0) (V c main_v34) _ _ _ (funext h0) (funext h1) t.val (fun y => ?_) (fun y => ?_) j
  · show win3_2.index t (0 : Fin 2) * 2000 + 1 * (y 0).val = t.val * 2000 + (y 0).val
    rw [e4, Nat.one_mul]
  · show win3_2.index t (1 : Fin 2) * 128 + 1 * (y 1).val = (y 1).val
    rw [e5, Nat.zero_mul, Nat.zero_add, Nat.one_mul]

/-- An index of the output table is in point t's block iff each coordinate is in the block's range on its axis. -/
theorem mem_blk (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v67).slice (win3_2.rect t)).set ↔ _
  rw [View.set_slice_whole, Rect.mem_set_unit]
  exact Iff.rfl

/-- THE BLOCKS COVER THE TABLE: row r lies in the block of point r / 2000. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 25 := N_3
  have hlt : (i 0).val / 2000 < grid3.N := by rw [hN]; omega
  obtain ⟨-, -, -, -, e4, e5⟩ := blocks_together ⟨(i 0).val / 2000, hlt⟩
  refine ⟨⟨(i 0).val / 2000, hlt⟩, flush3_2 _, ?_⟩
  rw [mem_blk]
  intro a
  match a with
  | ⟨0, _⟩ =>
    show win3_2.index ⟨(i 0).val / 2000, hlt⟩ (0 : Fin 2) * 2000 ≤ (i 0).val ∧ (i 0).val < win3_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, hlt⟩ (1 : Fin 2) * 128 ≤ (i 1).val ∧ (i 1).val < win3_2.index ⟨(i 0).val / 2000, hlt⟩ (1 : Fin 2) * 128 + 128
    rw [e5]
    omega

/-- THE OUTPUT TABLE after the region is the readout of the projection and the aggregate as the region finds them. -/
theorem arr2 (c : Dev nD) : (dat3 (F := Ideal) V c).arrAt 2 cfg3.N
    = Cert.Spec.readout (M := 50000) (V c main_v3_0) (V c main_v34) :=
  (dat3 (F := Ideal) V c).arrAt_eq_of_cover 2 _ (fun t _ => flushed_eq V c t) (cover)

end Cert.Hand.Region3

end
-- ==== Proof.KernelChain.lean ====
import proofs.«130975_j12936441495793_1_alg».proof.Proof.Gen.KernelIdeal.Frame
import proofs.«130975_j12936441495793_1_alg».proof.Proof.Whole
import proofs.«130975_j12936441495793_1_alg».proof.Proof.Region0
import proofs.«130975_j12936441495793_1_alg».proof.Proof.Region1
import proofs.«130975_j12936441495793_1_alg».proof.Proof.Region2
import proofs.«130975_j12936441495793_1_alg».proof.Proof.Region3
import Idealize.ShloMosaic.Lib.StableHlo.Run

set_option maxRecDepth 16384

noncomputable section

open Idealize.ShloMosaic Idealize.ShloMosaic.TcCoe Idealize.SL.Sem

namespace Cert.Hand.Chain

open Cert.KernelIdeal Cert.KernelIdeal.Gen

variable (m : (ℓ : Loc nD τ sig) → Buf (Elt Ideal) ℓ) (ρ : Dev nD → PrngReg)

/-- A stretch of host operations leaves a buffer as it was when none of them has it as its result. -/
local macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Region 0's entry: after the two transposes -/

/-- A buffer that is neither transposed weight matrix is still at its launch contents. -/
theorem W1_launch (c : Dev nD) (b : Ref sig .tc) (h0 : b ≠ main_v0) (h1 : b ≠ main_v1) :
    W1 m ρ c (Proc.devRef .tc b) = m ((c : Thread nD τ).loc b) :=
  calc W1 m ρ c (Proc.devRef .tc b)
    _ = W0 m ρ c (Proc.devRef .tc b) := StableHlo.after_of_forall_not_mem (b := Proc.devRef .tc b) _ _ (List.forall_iff_forall_mem.mp (by
          simp only [hostOps0, List.Forall, StableHlo.unary_writes, Finset.mem_singleton]
          exact ⟨StableHlo.devRef_ne_of_ne h0, StableHlo.devRef_ne_of_ne h1⟩))
    _ = m ((c : Thread nD τ).loc b) := rfl

/-- The first weight matrix, transposed. -/
theorem W1_v0 (c : Dev nD) :
    W1 m ρ c (Proc.devRef .tc main_v0) = Cert.Whole.tr (m ((c : Thread nD τ).loc main_arg2)) := by
  show StableHlo.after hostOps0 (W0 m ρ c) (Proc.devRef .tc main_v0) = _
  unfold Cert.Whole.tr
  after_results

/-- The second weight matrix, transposed. -/
theorem W1_v1 (c : Dev nD) :
    W1 m ρ c (Proc.devRef .tc main_v1) = Cert.Whole.tr (m ((c : Thread nD τ).loc main_arg4)) := by
  show StableHlo.after hostOps0 (W0 m ρ c) (Proc.devRef .tc main_v1) = _
  unfold Cert.Whole.tr
  after_results

/-! ## Region 0's exit: the users' two projections; its inputs pass through unchanged -/

theorem W2_v0 (c : Dev nD) :
    W2 m ρ c (Proc.devRef .tc main_v0) = Cert.Whole.tr (m ((c : Thread nD τ).loc main_arg2)) :=
  calc W2 m ρ c (Proc.devRef .tc main_v0)
    _ = W1 m ρ c (Proc.devRef .tc main_v0) := (W2_arr m ρ c 1).trans (((dat0 (V1 m ρ) c).arrAt_in 1 rfl _).trans (A_eq0 (V1 m ρ) c 1))
    _ = _ := W1_v0 m ρ c

theorem W2_v1 (c : Dev nD) :
    W2 m ρ c (Proc.devRef .tc main_v1) = Cert.Whole.tr (m ((c : Thread nD τ).loc main_arg4)) :=
  calc W2 m ρ c (Proc.devRef .tc main_v1)
    _ = W1 m ρ c (Proc.devRef .tc main_v1) := (W2_arr m ρ c 3).trans (((dat0 (V1 m ρ) c).arrAt_in 3 rfl _).trans (A_eq0 (V1 m ρ) c 3))
    _ = _ := W1_v1 m ρ c

theorem W2_arg3 (c : Dev nD) :
    W2 m ρ c (Proc.devRef .tc main_arg3) = m ((c : Thread nD τ).loc main_arg3) :=
  calc W2 m ρ c (Proc.devRef .tc main_arg3)
    _ = W1 m ρ c (Proc.devRef .tc main_arg3) := (W2_arr m ρ c 2).trans (((dat0 (V1 m ρ) c).arrAt_in 2 rfl _).trans (A_eq0 (V1 m ρ) c 2))
    _ = _ := W1_launch m ρ c main_arg3 (by decide) (by decide)

/-- A buffer outside region 0 that is neither transposed weight matrix is at its launch contents at region 0's exit. -/
theorem W2_launch (c : Dev nD) (b : Ref sig .tc) (hb : ∀ w, Pipeline.arrRef spec0 w ≠ b) (h0 : b ≠ main_v0) (h1 : b ≠ main_v1) :
    W2 m ρ c (Proc.devRef .tc b) = m ((c : Thread nD τ).loc b) :=
  (W2_of_ne m ρ c b hb).trans (W1_launch m ρ c b h0 h1)

/-- The users' first projection: x_user · W1ᵀ + b1. -/
theorem W2_v2_0 (c : Dev nD) :
    W2 m ρ c (Proc.devRef .tc main_v2_0)
      = Cert.Whole.P1u (m ((c : Thread nD τ).loc main_arg0)) (m ((c : Thread nD τ).loc main_arg2)) (m ((c : Thread nD τ).loc main_arg3)) := by
  refine (W2_arr m ρ c 4).trans ((Cert.Hand.Region0.arr4 (V1 m ρ) c).trans ?_)
  unfold Cert.Whole.P1u
  show Cert.Spec.projBias (M := 100000) (W1 m ρ c (Proc.devRef .tc main_arg0)) (W1 m ρ c (Proc.devRef .tc main_v0))
    (W1 m ρ c (Proc.devRef .tc main_arg3)) = _
  rw [W1_v0, W1_launch m ρ c main_arg0 (by decide) (by decide), W1_launch m ρ c main_arg3 (by decide) (by decide)]

/-- The users' second projection: x_user · W2ᵀ. -/
theorem W2_v2_1 (c : Dev nD) :
    W2 m ρ c (Proc.devRef .tc main_v2_1)
      = Cert.Whole.Q2u (m ((c : Thread nD τ).loc main_arg0)) (m ((c : Thread nD τ).loc main_arg4)) := by
  refine (W2_arr m ρ c 5).trans ((Cert.Hand.Region0.arr5 (V1 m ρ) c).trans ?_)
  unfold Cert.Whole.Q2u
  show Cert.Spec.proj (M := 100000) (W1 m ρ c (Proc.devRef .tc main_arg0)) (W1 m ρ c (Proc.devRef .tc main_v1)) = _
  rw [W1_v1, W1_launch m ρ c main_arg0 (by decide) (by decide)]

/-! ## Region 1's exit: the items' two projections beside the users' -/

theorem W3_v2_0 (c : Dev nD) :
    W3 m ρ c (Proc.devRef .tc main_v2_0)
      = Cert.Whole.P1u (m ((c : Thread nD τ).loc main_arg0)) (m ((c : Thread nD τ).loc main_arg2)) (m ((c : Thread nD τ).loc main_arg3)) :=
  (W3_of_ne m ρ c main_v2_0 (by decide)).trans (W2_v2_0 m ρ c)

theorem W3_v2_1 (c : Dev nD) :
    W3 m ρ c (Proc.devRef .tc main_v2_1)
      = Cert.Whole.Q2u (m ((c : Thread nD τ).loc main_arg0)) (m ((c : Thread nD τ).loc main_arg4)) :=
  (W3_of_ne m ρ c main_v2_1 (by decide)).trans (W2_v2_1 m ρ c)

/-- The items' first projection: x_item · W1ᵀ + b1. -/
theorem W3_v3_0 (c : Dev nD) :
    W3 m ρ c (Proc.devRef .tc main_v3_0)
      = Cert.Whole.P1i (m ((c : Thread nD τ).loc main_arg1)) (m ((c : Thread nD τ).loc main_arg2)) (m ((c : Thread nD τ).loc main_arg3)) := by
  refine (W3_arr m ρ c 4).trans ((Cert.Hand.Region1.arr4 (V2 m ρ) c).trans ?_)
  unfold Cert.Whole.P1i
  show Cert.Spec.projBias (M := 50000) (W2 m ρ c (Proc.devRef .tc main_arg1)) (W2 m ρ c (Proc.devRef .tc main_v0))
    (W2 m ρ c (Proc.devRef .tc main_arg3)) = _
  rw [W2_v0, W2_arg3, W2_launch m ρ c main_arg1 (by decide) (by decide) (by decide)]

/-- The items' second projection: x_item · W2ᵀ. -/
theorem W3_v3_1 (c : Dev nD) :
    W3 m ρ c (Proc.devRef .tc main_v3_1)
      = Cert.Whole.Q2i (m ((c : Thread nD τ).loc main_arg1)) (m ((c : Thread nD τ).loc main_arg4)) := by
  refine (W3_arr m ρ c 5).trans ((Cert.Hand.Region1.arr5 (V2 m ρ) c).trans ?_)
  unfold Cert.Whole.Q2i
  show Cert.Spec.proj (M := 50000) (W2 m ρ c (Proc.devRef .tc main_arg1)) (W2 m ρ c (Proc.devRef .tc main_v1)) = _
  rw [W2_v1, W2_launch m ρ c main_arg1 (by decide) (by decide) (by decide)]

/-- A buffer outside both projection regions, and neither transposed weight matrix, is at its launch contents when the
    message stage starts: the second bias, the edge lists and the edge weights. -/
theorem W3_launch (c : Dev nD) (b : Ref sig .tc) (h1 : ∀ w, Pipeline.arrRef spec1 w ≠ b) (h0 : ∀ w, Pipeline.arrRef spec0 w ≠ b)
    (hv0 : b ≠ main_v0) (hv1 : b ≠ main_v1) :
    W3 m ρ c (Proc.devRef .tc b) = m ((c : Thread nD τ).loc b) :=
  (W3_of_ne m ρ c b h1).trans (W2_launch m ρ c b h0 hv0 hv1)

/-! ## Region 2's entry: after the message stage -/

/-- The message stage does not write the users' first projection. -/
theorem W4_v2_0 (c : Dev nD) :
    W4 m ρ c (Proc.devRef .tc main_v2_0) = W3 m ρ c (Proc.devRef .tc main_v2_0) := by
  host_keeps hostOps2

/-- The message stage does not write the items' first projection. -/
theorem W4_v3_0 (c : Dev nD) :
    W4 m ρ c (Proc.devRef .tc main_v3_0) = W3 m ρ c (Proc.devRef .tc main_v3_0) := by
  host_keeps hostOps2

set_option maxHeartbeats 8000000 in
/-- The messages summed per user, as the one function of the tables held when the stage starts. -/
theorem W4_v65_of (c : Dev nD) :
    W4 m ρ c (Proc.devRef .tc main_v65)
      = Cert.Mid.aggUser (F := Ideal) (W3 m ρ c (Proc.devRef .tc main_v3_0)) (W3 m ρ c (Proc.devRef .tc main_v3_1)) (W3 m ρ c (Proc.devRef .tc main_v2_1))
          (W3 m ρ c (Proc.devRef .tc main_arg5)) (W3 m ρ c (Proc.devRef .tc main_arg9)) (W3 m ρ c (Proc.devRef .tc main_arg10)) (W3 m ρ c (Proc.devRef .tc main_arg11)) := by
  show StableHlo.after hostOps2 (W3 m ρ c) (Proc.devRef .tc main_v65) = _
  generalize W3 m ρ c = X
  unfold Cert.Mid.aggUser Cert.Mid.colI Cert.Mid.colU Cert.Mid.biasRows
  after_results_simp

set_option maxHeartbeats 8000000 in
/-- The messages summed per item, as the one function of the tables held when the stage starts. -/
theorem W4_v34_of (c : Dev nD) :
    W4 m ρ c (Proc.devRef .tc main_v34)
      = Cert.Mid.aggItem (F := Ideal) (W3 m ρ c (Proc.devRef .tc main_v2_0)) (W3 m ρ c (Proc.devRef .tc main_v2_1)) (W3 m ρ c (Proc.devRef .tc main_v3_1))
          (W3 m ρ c (Proc.devRef .tc main_arg5)) (W3 m ρ c (Proc.devRef .tc main_arg6)) (W3 m ρ c (Proc.devRef .tc main_arg7)) (W3 m ρ c (Proc.devRef .tc main_arg8)) := by
  show StableHlo.after hostOps2 (W3 m ρ c) (Proc.devRef .tc main_v34) = _
  generalize W3 m ρ c = X
  unfold Cert.Mid.aggItem Cert.Mid.colI Cert.Mid.colU Cert.Mid.biasRows
  after_results_simp

/-- The messages summed per user, of the launch arrays. -/
theorem W4_v65 (c : Dev nD) :
    W4 m ρ c (Proc.devRef .tc main_v65)
      = Cert.Mid.aggUser (F := Ideal) (Cert.Whole.P1i (m ((c : Thread nD τ).loc main_arg1)) (m ((c : Thread nD τ).loc main_arg2)) (m ((c : Thread nD τ).loc main_arg3))) (Cert.Whole.Q2i (m ((c : Thread nD τ).loc main_arg1)) (m ((c : Thread nD τ).loc main_arg4))) (Cert.Whole.Q2u (m ((c : Thread nD τ).loc main_arg0)) (m ((c : Thread nD τ).loc main_arg4)))
          (m ((c : Thread nD τ).loc main_arg5)) (m ((c : Thread nD τ).loc main_arg9)) (m ((c : Thread nD τ).loc main_arg10)) (m ((c : Thread nD τ).loc main_arg11)) := by
  rw [W4_v65_of, W3_v3_0, W3_v3_1, W3_v2_1, W3_launch m ρ c main_arg5 (by decide) (by decide) (by decide) (by decide), W3_launch m ρ c main_arg9 (by decide) (by decide) (by decide) (by decide),
    W3_launch m ρ c main_arg10 (by decide) (by decide) (by decide) (by decide), W3_launch m ρ c main_arg11 (by decide) (by decide) (by decide) (by decide)]

/-- The messages summed per item, of the launch arrays. -/
theorem W4_v34 (c : Dev nD) :
    W4 m ρ c (Proc.devRef .tc main_v34)
      = Cert.Mid.aggItem (F := Ideal) (Cert.Whole.P1u (m ((c : Thread nD τ).loc main_arg0)) (m ((c : Thread nD τ).loc main_arg2)) (m ((c : Thread nD τ).loc main_arg3))) (Cert.Whole.Q2u (m ((c : Thread nD τ).loc main_arg0)) (m ((c : Thread nD τ).loc main_arg4))) (Cert.Whole.Q2i (m ((c : Thread nD τ).loc main_arg1)) (m ((c : Thread nD τ).loc main_arg4)))
          (m ((c : Thread nD τ).loc main_arg5)) (m ((c : Thread nD τ).loc main_arg6)) (m ((c : Thread nD τ).loc main_arg7)) (m ((c : Thread nD τ).loc main_arg8)) := by
  rw [W4_v34_of, W3_v2_0, W3_v2_1, W3_v3_1, W3_launch m ρ c main_arg5 (by decide) (by decide) (by decide) (by decide), W3_launch m ρ c main_arg6 (by decide) (by decide) (by decide) (by decide),
    W3_launch m ρ c main_arg7 (by decide) (by decide) (by decide) (by decide), W3_launch m ρ c main_arg8 (by decide) (by decide) (by decide) (by decide)]

/-! ## Region 2's exit: the users' readout is written; the items' inputs pass by it -/

theorem W5_v3_0 (c : Dev nD) :
    W5 m ρ c (Proc.devRef .tc main_v3_0) = Cert.Whole.P1i (m ((c : Thread nD τ).loc main_arg1)) (m ((c : Thread nD τ).loc main_arg2)) (m ((c : Thread nD τ).loc main_arg3)) :=
  (W5_of_ne m ρ c main_v3_0 (by decide)).trans ((W4_v3_0 m ρ c).trans (W3_v3_0 m ρ c))

theorem W5_v34 (c : Dev nD) :
    W5 m ρ c (Proc.devRef .tc main_v34)
      = Cert.Mid.aggItem (F := Ideal) (Cert.Whole.P1u (m ((c : Thread nD τ).loc main_arg0)) (m ((c : Thread nD τ).loc main_arg2)) (m ((c : Thread nD τ).loc main_arg3))) (Cert.Whole.Q2u (m ((c : Thread nD τ).loc main_arg0)) (m ((c : Thread nD τ).loc main_arg4))) (Cert.Whole.Q2i (m ((c : Thread nD τ).loc main_arg1)) (m ((c : Thread nD τ).loc main_arg4)))
          (m ((c : Thread nD τ).loc main_arg5)) (m ((c : Thread nD τ).loc main_arg6)) (m ((c : Thread nD τ).loc main_arg7)) (m ((c : Thread nD τ).loc main_arg8)) :=
  (W5_of_ne m ρ c main_v34 (by decide)).trans (W4_v34 m ρ c)

/-! ## The two results at the return -/

/-- The users' result: region 3 passes it by; region 2 wrote the readout of the users' first projection and the messages
    summed per user. -/
theorem user (c : Dev nD) : W6 m ρ c (Proc.devRef .tc main_v66)
    = Cert.Whole.hUser (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg9)) (m ((c.tc : Thread nD τ).loc main_arg10)) (m ((c.tc : Thread nD τ).loc main_arg11)) := by
  refine (W6_of_ne m ρ c main_v66 (by decide)).trans ((W5_arr m ρ c 2).trans ((Cert.Hand.Region2.arr2 (V4 m ρ) c).trans ?_))
  unfold Cert.Whole.hUser
  show Cert.Spec.readout (M := 100000) (W4 m ρ c (Proc.devRef .tc main_v2_0)) (W4 m ρ c (Proc.devRef .tc main_v65)) = _
  rw [W4_v65, W4_v2_0, W3_v2_0]

/-- The items' result: region 3 wrote the readout of the items' first projection and the messages summed per item. -/
theorem item (c : Dev nD) : W6 m ρ c (Proc.devRef .tc main_v67)
    = Cert.Whole.hItem (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (W6_arr m ρ c 2).trans ((Cert.Hand.Region3.arr2 (V5 m ρ) c).trans ?_)
  unfold Cert.Whole.hItem
  show Cert.Spec.readout (M := 50000) (W5 m ρ c (Proc.devRef .tc main_v3_0)) (W5 m ρ c (Proc.devRef .tc main_v34)) = _
  rw [W5_v34, W5_v3_0]

end Cert.Hand.Chain

end
-- ==== Proof.RefFrame.lean ====
/-
  The reference program has no kernel: its frame is its run with the results dropped. Every weakly fair execution of the
  host program terminates without a fault and leaves each argument array as it was launched.
-/
import proofs.«130975_j12936441495793_1_alg».proof.Defs
import proofs.«130975_j12936441495793_1_alg».proof.Proof.Gen.ReferenceIdeal
import proofs.«130975_j12936441495793_1_alg».proof.Proof.Gen.Pre_finite_inputs
import proofs.«130975_j12936441495793_1_alg».proof.Proof.Gen.ReferenceIdeal.Run

noncomputable section

open Idealize.ShloMosaic Idealize.ShloMosaic.TcCoe Idealize.SL.Sem

namespace Cert.Proof.RefFrame

theorem frame_ri : Cert.frame_ReferenceIdeal := fun m ρ _ =>
  (θ_run Cert.ReferenceIdeal.defs _ _).mono (fun _ h c => (h c).2.2) (Cert.ReferenceIdeal.Value.run (F := Ideal) m ρ)

end Cert.Proof.RefFrame

end
-- ==== Proof.RefValue.lean ====
/-
  THE REFERENCE PROGRAM COMPUTES THE WHOLE LAYER.

  The reference spells the layer as 126 whole-array operations. Three facts join it to the layer's one function:
  * its four dense stages are the four projections, entry by entry: entry (r, c) of a product is the sum over k of
    x (r, k) * wᵀ (k, c), and the bias row adds b (c) to every row;
  * its message stage (wrap of negative row numbers, takes of rows, three sums, the bias row, the product with the edge
    weight, the accumulating scatter into zeros) is the shared message stage applied to those projections: the same
    operations on the same operands, in the same order;
  * its readout stage is the readout, entry by entry: entry (r, c) depends on row r of projection and aggregate only; the
    row's sum of squares starts from the zero word, which adds nothing.
-/
import proofs.«130975_j12936441495793_1_alg».proof.Proof.Gen.ReferenceIdeal.Run
import proofs.«130975_j12936441495793_1_alg».proof.Proof.Gen.ReferenceIdeal.Read
import proofs.«130975_j12936441495793_1_alg».proof.Proof.Whole

noncomputable section

open Idealize.ShloMosaic Idealize.ShloMosaic.TcCoe Idealize.SL.Sem

namespace Cert.Hand.Ref

open Cert.ReferenceIdeal Cert.ReferenceIdeal.Gen Cert.ReferenceIdeal.Read
open Idealize.ShloMosaic.ValueIdx

/-! ## The four projections -/

/-- The first weight matrix, transposed (the users' copy). -/
theorem trW1u (x2 : (⟨S128x128, .f32⟩ : BufTy).Contents (Elt Ideal)) : val_main_v0 (F := Ideal) x2 = Cert.Whole.tr x2 := rfl
/-- The first weight matrix, transposed (the items' copy). -/
theorem trW1i (x2 : (⟨S128x128, .f32⟩ : BufTy).Contents (Elt Ideal)) : val_main_v5 (F := Ideal) x2 = Cert.Whole.tr x2 := rfl
/-- The second weight matrix, transposed (the users' copy). -/
theorem trW2u (x4 : (⟨S128x128, .f32⟩ : BufTy).Contents (Elt Ideal)) : val_main_v10 (F := Ideal) x4 = Cert.Whole.tr x4 := rfl
/-- The second weight matrix, transposed (the items' copy). -/
theorem trW2i (x4 : (⟨S128x128, .f32⟩ : BufTy).Contents (Elt Ideal)) : val_main_v12 (F := Ideal) x4 = Cert.Whole.tr x4 := rfl

/-- Users' first projection: entry (r, q) is the sum over k of x (r, k) * W1ᵀ (k, q), plus b1 (q). -/
theorem projP1u (x0 : (⟨S100000x128, .f32⟩ : BufTy).Contents (Elt Ideal)) (x2 : (⟨S128x128, .f32⟩ : BufTy).Contents (Elt Ideal)) (x3 : (⟨S128, .f32⟩ : BufTy).Contents (Elt Ideal)) :
    val_main_v4 (F := Ideal) x0 x2 x3 = Cert.Whole.P1u x0 x2 x3 := by
  funext i
  obtain ⟨r, q, rfl⟩ : ∃ (r : Fin 100000) (q : Fin 128), i = ix2 r q := ⟨i 0, i 1, eq_ix2 i⟩
  rw [val_main_v4_apply, val_main_v1_apply, val_main_v3_apply, val_main_v2_apply, trW1u]
  have el : ∀ k : Fin 128, lidx_main_v1 (ix2 r q) k = ix2 r k := fun k => funext fun a => Fin.ext (by match a with | ⟨0, _⟩ => rfl | ⟨1, _⟩ => rfl)
  have er : ∀ k : Fin 128, ridx_main_v1 (ix2 r q) k = ix2 k q := fun k => funext fun a => Fin.ext (by match a with | ⟨0, _⟩ => rfl | ⟨1, _⟩ => rfl)
  have eb : idx_main_v2 (idx_main_v3 (ix2 r q)) = ix1 q := funext fun a => Fin.ext (by match a with | ⟨0, _⟩ => rfl)
  simp only [el, er, eb]
  rfl

/-- Items' first projection. -/
theorem projP1i (x1 : (⟨S50000x128, .f32⟩ : BufTy).Contents (Elt Ideal)) (x2 : (⟨S128x128, .f32⟩ : BufTy).Contents (Elt Ideal)) (x3 : (⟨S128, .f32⟩ : BufTy).Contents (Elt Ideal)) :
    val_main_v9 (F := Ideal) x1 x2 x3 = Cert.Whole.P1i x1 x2 x3 := by
  funext i
  obtain ⟨r, q, rfl⟩ : ∃ (r : Fin 50000) (q : Fin 128), i = ix2 r q := ⟨i 0, i 1, eq_ix2 i⟩
  rw [val_main_v9_apply, val_main_v6_apply, val_main_v8_apply, val_main_v7_apply, trW1i]
  have el : ∀ k : Fin 128, lidx_main_v6 (ix2 r q) k = ix2 r k := fun k => funext fun a => Fin.ext (by match a with | ⟨0, _⟩ => rfl | ⟨1, _⟩ => rfl)
  have er : ∀ k : Fin 128, ridx_main_v6 (ix2 r q) k = ix2 k q := fun k => funext fun a => Fin.ext (by match a with | ⟨0, _⟩ => rfl | ⟨1, _⟩ => rfl)
  have eb : idx_main_v7 (idx_main_v8 (ix2 r q)) = ix1 q := funext fun a => Fin.ext (by match a with | ⟨0, _⟩ => rfl)
  simp only [el, er, eb]
  rfl

/-- Users' second projection: entry (r, q) is the sum over k of x (r, k) * W2ᵀ (k, q). -/
theorem projQ2u (x0 : (⟨S100000x128, .f32⟩ : BufTy).Contents (Elt Ideal)) (x4 : (⟨S128x128, .f32⟩ : BufTy).Contents (Elt Ideal)) :
    val_main_v11 (F := Ideal) x0 x4 = Cert.Whole.Q2u x0 x4 := by
  funext i
  obtain ⟨r, q, rfl⟩ : ∃ (r : Fin 100000) (q : Fin 128), i = ix2 r q := ⟨i 0, i 1, eq_ix2 i⟩
  rw [val_main_v11_apply, trW2u]
  have el : ∀ k : Fin 128, lidx_main_v11 (ix2 r q) k = ix2 r k := fun k => funext fun a => Fin.ext (by match a with | ⟨0, _⟩ => rfl | ⟨1, _⟩ => rfl)
  have er : ∀ k : Fin 128, ridx_main_v11 (ix2 r q) k = ix2 k q := fun k => funext fun a => Fin.ext (by match a with | ⟨0, _⟩ => rfl | ⟨1, _⟩ => rfl)
  simp only [el, er]
  rfl

/-- Items' second projection. -/
theorem projQ2i (x1 : (⟨S50000x128, .f32⟩ : BufTy).Contents (Elt Ideal)) (x4 : (⟨S128x128, .f32⟩ : BufTy).Contents (Elt Ideal)) :
    val_main_v13 (F := Ideal) x1 x4 = Cert.Whole.Q2i x1 x4 := by
  funext i
  obtain ⟨r, q, rfl⟩ : ∃ (r : Fin 50000) (q : Fin 128), i = ix2 r q := ⟨i 0, i 1, eq_ix2 i⟩
  rw [val_main_v13_apply, trW2i]
  have el : ∀ k : Fin 128, lidx_main_v13 (ix2 r q) k = ix2 r k := fun k => funext fun a => Fin.ext (by match a with | ⟨0, _⟩ => rfl | ⟨1, _⟩ => rfl)
  have er : ∀ k : Fin 128, ridx_main_v13 (ix2 r q) k = ix2 k q := fun k => funext fun a => Fin.ext (by match a with | ⟨0, _⟩ => rfl | ⟨1, _⟩ => rfl)
  simp only [el, er]
  rfl

/-! ## The message stage is the shared one -/

/-- Item → user edges: the reference's chain is the shared message stage applied to its own projections. -/
theorem aggUser_eq (x0 : (⟨S100000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x9 x10 : (⟨S300000, .i32⟩ : BufTy).Contents (Elt Ideal)) (x11 : (⟨S300000x1, .f32⟩ : BufTy).Contents (Elt Ideal)) :
    val_main_v75 (F := Ideal) x0 x1 x2 x3 x4 x5 x9 x10 x11 =
      Cert.Mid.aggUser (F := Ideal) (val_main_v9 (F := Ideal) x1 x2 x3) (val_main_v13 (F := Ideal) x1 x4) (val_main_v11 (F := Ideal) x0 x4) x5 x9 x10 x11 := by
  unfold val_main_v75 val_main_v74 val_main_v73 val_main_cst_11 val_main_v72 val_main_v71 val_main_v70 val_main_v69 val_main_v68
    val_main_v67 val_main_v66 val_main_v65 val_main_v64 val_main_v63 val_main_v62 val_main_c_10 val_main_v61 val_main_v60 val_main_c_9
    val_main_v59 val_main_v58 val_main_v57 val_main_v56 val_main_v55 val_main_v54 val_main_c_8 val_main_v53 val_main_v52 val_main_c_7
    val_main_v51 val_main_v50 val_main_v49 val_main_v48 val_main_v47 val_main_c_6 val_main_v46 val_main_v45 val_main_c_5
    Cert.Mid.aggUser Cert.Mid.colU Cert.Mid.colI Cert.Mid.biasRows
  rfl

/-- User → item edges: the reference's chain is the shared message stage applied to its own projections. -/
theorem aggItem_eq (x0 : (⟨S100000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 x7 : (⟨S300000, .i32⟩ : BufTy).Contents (Elt Ideal)) (x8 : (⟨S300000x1, .f32⟩ : BufTy).Contents (Elt Ideal)) :
    val_main_v44 (F := Ideal) x0 x1 x2 x3 x4 x5 x6 x7 x8 =
      Cert.Mid.aggItem (F := Ideal) (val_main_v4 (F := Ideal) x0 x2 x3) (val_main_v11 (F := Ideal) x0 x4) (val_main_v13 (F := Ideal) x1 x4) x5 x6 x7 x8 := by
  unfold val_main_v44 val_main_v43 val_main_v42 val_main_cst val_main_v41 val_main_v40 val_main_v39 val_main_v38 val_main_v37
    val_main_v36 val_main_v35 val_main_v34 val_main_v33 val_main_v32 val_main_v31 val_main_c_4 val_main_v30 val_main_v29 val_main_c_3
    val_main_v28 val_main_v27 val_main_v26 val_main_v25 val_main_v24 val_main_v23 val_main_c_2 val_main_v22 val_main_v21 val_main_c_1
    val_main_v20 val_main_v19 val_main_v18 val_main_v17 val_main_v16 val_main_c_0 val_main_v15 val_main_v14 val_main_c
    Cert.Mid.aggItem Cert.Mid.colU Cert.Mid.colI Cert.Mid.biasRows
  rfl

/-! ## The readout -/

/-- The users' activated entry: the leaky rectifier of projection plus aggregate, at any index. -/
theorem actUser (x0 : (⟨S100000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x9 x10 : (⟨S300000, .i32⟩ : BufTy).Contents (Elt Ideal)) (x11 : (⟨S300000x1, .f32⟩ : BufTy).Contents (Elt Ideal)) (j : S100000x128.Idx) :
    val_main_v82 (F := Ideal) x0 x1 x2 x3 x4 x5 x9 x10 x11 j =
      Cert.Spec.lrelu (val_main_v4 (F := Ideal) x0 x2 x3 j + val_main_v75 (F := Ideal) x0 x1 x2 x3 x4 x5 x9 x10 x11 j) := by
  rw [val_main_v82_apply, val_main_v79_apply, val_main_v81_apply, val_main_v76_apply, val_main_v78_apply, val_main_cst_12_apply,
    val_main_v80_apply, val_main_cst_13_apply]
  rfl

/-- The items' activated entry. -/
theorem actItem (x0 : (⟨S100000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 x7 : (⟨S300000, .i32⟩ : BufTy).Contents (Elt Ideal)) (x8 : (⟨S300000x1, .f32⟩ : BufTy).Contents (Elt Ideal)) (j : S50000x128.Idx) :
    val_main_v95 (F := Ideal) x0 x1 x2 x3 x4 x5 x6 x7 x8 j =
      Cert.Spec.lrelu (val_main_v9 (F := Ideal) x1 x2 x3 j + val_main_v44 (F := Ideal) x0 x1 x2 x3 x4 x5 x6 x7 x8 j) := by
  rw [val_main_v95_apply, val_main_v92_apply, val_main_v94_apply, val_main_v77_apply, val_main_v91_apply, val_main_cst_16_apply,
    val_main_v93_apply, val_main_cst_17_apply]
  rfl

/-- The users' readout: entry (r, q) is the activated entry over the length of row r of the activated table, floored;
    the row's sum of squares starts from the zero word. -/
theorem readoutUser (x0 : (⟨S100000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x9 x10 : (⟨S300000, .i32⟩ : BufTy).Contents (Elt Ideal)) (x11 : (⟨S300000x1, .f32⟩ : BufTy).Contents (Elt Ideal)) :
    val_main_v90 (F := Ideal) x0 x1 x2 x3 x4 x5 x9 x10 x11 =
      Cert.Spec.readout (M := 100000) (val_main_v4 (F := Ideal) x0 x2 x3) (val_main_v75 (F := Ideal) x0 x1 x2 x3 x4 x5 x9 x10 x11) := by
  funext i
  obtain ⟨r, q, rfl⟩ : ∃ (r : Fin 100000) (q : Fin 128), i = ix2 r q := ⟨i 0, i 1, eq_ix2 i⟩
  rw [val_main_v90_apply, val_main_v89_apply, val_main_v88_apply, val_main_v86_apply, val_main_v85_apply, val_main_v84_apply,
    val_main_cst_14_apply, val_main_v87_apply, val_main_cst_15_apply, actUser]
  have ek : ∀ k : Fin 128, idx_main_v84 (idx_main_v85 (idx_main_v89 (ix2 r q))) k = ix2 r k := fun k => funext fun a => Fin.ext (by match a with | ⟨0, _⟩ => rfl | ⟨1, _⟩ => rfl)
  simp only [val_main_v83_apply, actUser, ek, Ideal.ofBits_def, Ideal.ofBits_zero_f32, zero_add]
  rfl

/-- The items' readout. -/
theorem readoutItem (x0 : (⟨S100000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 x7 : (⟨S300000, .i32⟩ : BufTy).Contents (Elt Ideal)) (x8 : (⟨S300000x1, .f32⟩ : BufTy).Contents (Elt Ideal)) :
    val_main_v103 (F := Ideal) x0 x1 x2 x3 x4 x5 x6 x7 x8 =
      Cert.Spec.readout (M := 50000) (val_main_v9 (F := Ideal) x1 x2 x3) (val_main_v44 (F := Ideal) x0 x1 x2 x3 x4 x5 x6 x7 x8) := by
  funext i
  obtain ⟨r, q, rfl⟩ : ∃ (r : Fin 50000) (q : Fin 128), i = ix2 r q := ⟨i 0, i 1, eq_ix2 i⟩
  rw [val_main_v103_apply, val_main_v102_apply, val_main_v101_apply, val_main_v99_apply, val_main_v98_apply, val_main_v97_apply,
    val_main_cst_18_apply, val_main_v100_apply, val_main_cst_19_apply, actItem]
  have ek : ∀ k : Fin 128, idx_main_v97 (idx_main_v98 (idx_main_v102 (ix2 r q))) k = ix2 r k := fun k => funext fun a => Fin.ext (by match a with | ⟨0, _⟩ => rfl | ⟨1, _⟩ => rfl)
  simp only [val_main_v96_apply, actItem, ek, Ideal.ofBits_def, Ideal.ofBits_zero_f32, zero_add]
  rfl

/-! ## The reference's two results -/

theorem user (x0 : (⟨S100000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x9 x10 : (⟨S300000, .i32⟩ : BufTy).Contents (Elt Ideal)) (x11 : (⟨S300000x1, .f32⟩ : BufTy).Contents (Elt Ideal)) :
    val_main_v90 (F := Ideal) x0 x1 x2 x3 x4 x5 x9 x10 x11 = Cert.Whole.hUser x0 x1 x2 x3 x4 x5 x9 x10 x11 := by
  rw [readoutUser, aggUser_eq, projP1u, projP1i, projQ2u, projQ2i]
  rfl

theorem item (x0 : (⟨S100000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal))
    (x6 x7 : (⟨S300000, .i32⟩ : BufTy).Contents (Elt Ideal)) (x8 : (⟨S300000x1, .f32⟩ : BufTy).Contents (Elt Ideal)) :
    val_main_v103 (F := Ideal) x0 x1 x2 x3 x4 x5 x6 x7 x8 = Cert.Whole.hItem x0 x1 x2 x3 x4 x5 x6 x7 x8 := by
  rw [readoutItem, aggItem_eq, projP1u, projP1i, projQ2u, projQ2i]
  rfl

end Cert.Hand.Ref

end
-- ==== Proof.lean ====
/-
  A two-node-type graph layer: dense projections of the user and item tables, messages along the two cross edge types
  summed per destination node, and a readout (leaky rectifier, rows scaled to unit length) of projection plus aggregate.

  The kernel program runs four tiled stages on 2000-row blocks — two projection stages (x · W1ᵀ + b1 and x · W2ᵀ per block,
  the operands narrowed to bf16 on the way into the matrix unit) and two readout stages — around the message stage, which it
  leaves to the host; the reference computes everything on the host with whole-array operations. Over the extended reals a
  change of float format is the identity and a matrix product is the plain sum over the contracted axis, so each projection
  stage ends holding x · Wᵀ (+ b1) of its whole table, because an entry of the product reads one row of x only and the
  blocks cover the rows; each readout stage ends holding the row-normalised rectifier of its whole table, because an entry
  of the readout reads one row only. The message stage is the same host function in both programs, applied to equal tables.
  So both programs end at ONE function of the twelve arguments (Proof/Whole.lean): the kernel program by reading its
  run boundary by boundary (Proof/KernelChain.lean over Proof/Region0 … Region3.lean), the reference by reading its run one
  operation at a time (Proof/RefValue.lean). No cancellation or distribution is used anywhere: only that the two sides
  evaluate the same expression entry by entry, so finiteness of the inputs is never opened.
  The three frames are the generated ones (the reference's is its run with the results dropped), and the kernel program
  is its own idealization (the pass rewrote nothing).
-/
import proofs.«130975_j12936441495793_1_alg».proof.Defs
import proofs.«130975_j12936441495793_1_alg».proof.Proof.Gen.Kernel
import proofs.«130975_j12936441495793_1_alg».proof.Proof.Gen.Kernel.Skeleton
import proofs.«130975_j12936441495793_1_alg».proof.Proof.Gen.Kernel.Launch
import proofs.«130975_j12936441495793_1_alg».proof.Proof.Gen.Kernel.Points
import proofs.«130975_j12936441495793_1_alg».proof.Proof.Gen.Kernel.Frame
import proofs.«130975_j12936441495793_1_alg».proof.Proof.Gen.KernelIdeal
import proofs.«130975_j12936441495793_1_alg».proof.Proof.Gen.KernelIdeal.Skeleton
import proofs.«130975_j12936441495793_1_alg».proof.Proof.Gen.KernelIdeal.Launch
import proofs.«130975_j12936441495793_1_alg».proof.Proof.Gen.KernelIdeal.Points
import proofs.«130975_j12936441495793_1_alg».proof.Proof.Gen.KernelIdeal.Frame
import proofs.«130975_j12936441495793_1_alg».proof.Proof.Gen.ReferenceIdeal
import proofs.«130975_j12936441495793_1_alg».proof.Proof.Gen.Pre_finite_inputs
import proofs.«130975_j12936441495793_1_alg».proof.Proof.KernelRun
import proofs.«130975_j12936441495793_1_alg».proof.Proof.KernelChain
import proofs.«130975_j12936441495793_1_alg».proof.Proof.RefFrame
import proofs.«130975_j12936441495793_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The ideal pass rewrote no operation: nothing to preserve. -/
theorem preserves : Cert.preserves_Kernel_KernelIdeal := trivial

/-- From memories agreeing on the twelve arguments both programs end with the users' and the items' result arrays at the
    layer's two functions of those arguments. -/
theorem algebraic : Cert.algebraic_KernelIdeal_ReferenceIdeal := by
  intro m ρ m' ρ' _ hagree
  refine ⟨fun c => Cert.KernelIdeal.Gen.W6 m ρ c (Proc.devRef .tc Cert.KernelIdeal.main_v66),
    fun c => Cert.KernelIdeal.Gen.W6 m ρ c (Proc.devRef .tc Cert.KernelIdeal.main_v67),
    Cert.KernelIdeal.RunNamed.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, -, -, -, e9, e10, e11⟩ := hagree c
    rw [Cert.ReferenceIdeal.Read.val_main_v90_eq, Cert.Hand.Ref.user, e0, e1, e2, e3, e4, e5, e9, e10, e11]
    exact (Cert.Hand.Chain.user m ρ c).symm
  · obtain ⟨e0, e1, e2, e3, e4, e5, e6, e7, e8, -, -, -⟩ := hagree c
    rw [Cert.ReferenceIdeal.Read.val_main_v103_eq, Cert.Hand.Ref.item, e0, e1, e2, e3, e4, e5, e6, e7, e8]
    exact (Cert.Hand.Chain.item m ρ c).symm

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, preserves, algebraic⟩

end Cert.Proof

end
